-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x16 : Shape := ⟨4, ![8, 512, 512, 16]⟩
abbrev S8x512x512x2 : Shape := ⟨4, ![8, 512, 512, 2]⟩
abbrev S_ : Shape := ⟨0, ![]⟩

class Facts : Prop where
  bcast_S_S8x512x512x16 : S_.BroadcastsInDim S8x512x512x16 (![] : Fin 0 → Fin S8x512x512x16.rank)
  reducesTo_S8x512x512x16_S_d0_1_2_3 : S8x512x512x16.ReducesTo [0, 1, 2, 3] S_
  h_S_ : 0 < S_.numel
  bcast_S_S8x512x512x2 : S_.BroadcastsInDim S8x512x512x2 (![] : Fin 0 → Fin S8x512x512x2.rank)
  reducesTo_S8x512x512x2_S_d0_1_2_3 : S8x512x512x2.ReducesTo [0, 1, 2, 3] S_

variable [Facts]

def fn {F : FTy → Type} [FloatOps F] (main_arg0 : FVec F S8x512x512x16 .f32) (main_arg1 : FVec F S8x512x512x2 .f32) : IVec S_ 1 :=
  let main_v0 : FVec F S8x512x512x16 .f32 := Host.absf main_arg0
  let main_cst : FVec F S_ .f32 := constant S_ .f32 0x7F800000#32
  let main_v1 : FVec F S8x512x512x16 .f32 := broadcastInDim S8x512x512x16 ![] bcast_S_S8x512x512x16 main_cst
  let main_v2 : IVec S8x512x512x16 1 := cmpf .olt main_v0 main_v1
  let main_c : IVec S_ 1 := constantI S_ 1 1#1
  let main_v3 : IVec S_ 1 := (fun x v => Host.reduce IntOp.andi x v reducesTo_S8x512x512x16_S_d0_1_2_3 h_S_) main_v2 main_c
  let main_v4 : FVec F S8x512x512x2 .f32 := Host.absf main_arg1
  let main_cst_0 : FVec F S_ .f32 := constant S_ .f32 0x7F800000#32
  let main_v5 : FVec F S8x512x512x2 .f32 := broadcastInDim S8x512x512x2 ![] bcast_S_S8x512x512x2 main_cst_0
  let main_v6 : IVec S8x512x512x2 1 := cmpf .olt main_v4 main_v5
  let main_c_1 : IVec S_ 1 := constantI S_ 1 1#1
  let main_v7 : IVec S_ 1 := (fun x v => Host.reduce IntOp.andi x v reducesTo_S8x512x512x2_S_d0_1_2_3 h_S_) main_v6 main_c_1
  let main_v8 : IVec S_ 1 := andi main_v3 main_v7
  main_v8
-- ==== Kernel.lean ====
abbrev S8x512x512x16 : Shape := ⟨4, ![8, 512, 512, 16]⟩
abbrev S8x512x512x2 : Shape := ⟨4, ![8, 512, 512, 2]⟩
abbrev S512 : Shape := ⟨1, ![512]⟩
abbrev S512x512 : Shape := ⟨2, ![512, 512]⟩
abbrev S512x512x1 : Shape := ⟨3, ![512, 512, 1]⟩
abbrev S512x512x2 : Shape := ⟨3, ![512, 512, 2]⟩
abbrev S1x512x512x2 : Shape := ⟨4, ![1, 512, 512, 2]⟩
abbrev S8x512x512x1 : Shape := ⟨4, ![8, 512, 512, 1]⟩
abbrev S8x512x512 : Shape := ⟨3, ![8, 512, 512]⟩
abbrev S_ : Shape := ⟨0, ![]⟩
abbrev S8x262144x16 : Shape := ⟨3, ![8, 262144, 16]⟩
abbrev S8x262144x1 : Shape := ⟨3, ![8, 262144, 1]⟩
abbrev S1 : Shape := ⟨1, ![1]⟩
abbrev S1x1x1 : Shape := ⟨3, ![1, 1, 1]⟩
abbrev S8x262144 : Shape := ⟨2, ![8, 262144]⟩
abbrev S1x64x512x16 : Shape := ⟨4, ![1, 64, 512, 16]⟩
abbrev S1x64x512x1 : Shape := ⟨4, ![1, 64, 512, 1]⟩

abbrev nBuf : Space → Nat
  | .hbm => 183
  | .vmem => 14
  | .smem => 0
  | _ => 0

abbrev hbmTy0_0 (i : Nat) : BufTy := match i % 128 with
  | 0 => ⟨S8x512x512x16, .f32⟩
  | 1 => ⟨S8x512x512x2, .f32⟩
  | 2 => ⟨S512, .i32⟩
  | 3 => ⟨S512, .i32⟩
  | 4 => ⟨S512x512, .i32⟩
  | 5 => ⟨S512x512, .i32⟩
  | 6 => ⟨S512x512x1, .i32⟩
  | 7 => ⟨S512x512x1, .i32⟩
  | 8 => ⟨S512x512x2, .i32⟩
  | 9 => ⟨S512x512x2, .f32⟩
  | 10 => ⟨S1x512x512x2, .f32⟩
  | 11 => ⟨S8x512x512x2, .f32⟩
  | 12 => ⟨S8x512x512x2, .f32⟩
  | 13 => ⟨S8x512x512x1, .f32⟩
  | 14 => ⟨S8x512x512, .f32⟩
  | 15 => ⟨S8x512x512x1, .f32⟩
  | 16 => ⟨S8x512x512, .f32⟩
  | 17 => ⟨S8x512x512, .f32⟩
  | 18 => ⟨S_, .f32⟩
  | 19 => ⟨S_, .i32⟩
  | 20 => ⟨S_, .f32⟩
  | 21 => ⟨S8x512x512, .f32⟩
  | 22 => ⟨S8x512x512, .f32⟩
  | 23 => ⟨S_, .f32⟩
  | 24 => ⟨S8x512x512, .f32⟩
  | 25 => ⟨S8x512x512, .f32⟩
  | 26 => ⟨S8x512x512, .f32⟩
  | 27 => ⟨S_, .f32⟩
  | 28 => ⟨S_, .i32⟩
  | 29 => ⟨S_, .f32⟩
  | 30 => ⟨S8x512x512, .f32⟩
  | 31 => ⟨S8x512x512, .f32⟩
  | 32 => ⟨S_, .f32⟩
  | 33 => ⟨S8x512x512, .f32⟩
  | 34 => ⟨S8x512x512, .f32⟩
  | 35 => ⟨S8x512x512, .f32⟩
  | 36 => ⟨S_, .f32⟩
  | 37 => ⟨S_, .f32⟩
  | 38 => ⟨S_, .f32⟩
  | 39 => ⟨S8x512x512, .f32⟩
  | 40 => ⟨S8x512x512, .f32⟩
  | 41 => ⟨S_, .f32⟩
  | 42 => ⟨S8x512x512, .f32⟩
  | 43 => ⟨S8x512x512, .f32⟩
  | 44 => ⟨S8x512x512x1, .f32⟩
  | 45 => ⟨S8x512x512, .f32⟩
  | 46 => ⟨S_, .f32⟩
  | 47 => ⟨S_, .f32⟩
  | 48 => ⟨S_, .f32⟩
  | 49 => ⟨S8x512x512, .f32⟩
  | 50 => ⟨S8x512x512, .f32⟩
  | 51 => ⟨S_, .f32⟩
  | 52 => ⟨S8x512x512, .f32⟩
  | 53 => ⟨S8x512x512, .f32⟩
  | 54 => ⟨S8x512x512x1, .f32⟩
  | 55 => ⟨S8x512x512, .i32⟩
  | 56 => ⟨S8x512x512, .i32⟩
  | 57 => ⟨S8x262144x16, .f32⟩
  | 58 => ⟨S_, .i32⟩
  | 59 => ⟨S8x512x512, .i32⟩
  | 60 => ⟨S8x512x512, .i32⟩
  | 61 => ⟨S8x512x512, .i32⟩
  | 62 => ⟨S8x262144x1, .i32⟩
  | 63 => ⟨S_, .i32⟩
  | 64 => ⟨S8x262144x1, .i32⟩
  | 65 => ⟨S8x262144x1, .i1⟩
  | 66 => ⟨S_, .i32⟩
  | 67 => ⟨S8x262144x1, .i32⟩
  | 68 => ⟨S8x262144x1, .i32⟩
  | 69 => ⟨S8x262144x1, .i32⟩
  | 70 => ⟨S1, .i32⟩
  | 71 => ⟨S_, .i32⟩
  | 72 => ⟨S8x262144x1, .i32⟩
  | 73 => ⟨S8x262144x1, .i1⟩
  | 74 => ⟨S1x1x1, .i32⟩
  | 75 => ⟨S8x262144x1, .i32⟩
  | 76 => ⟨S8x262144x1, .i1⟩
  | 77 => ⟨S8x262144x1, .i1⟩
  | 78 => ⟨S_, .i1⟩
  | 79 => ⟨S8x262144, .i1⟩
  | 80 => ⟨S8x262144x16, .f32⟩
  | 81 => ⟨S8x262144x16, .i1⟩
  | 82 => ⟨S_, .f32⟩
  | 83 => ⟨S8x262144x16, .f32⟩
  | 84 => ⟨S8x262144x16, .f32⟩
  | 85 => ⟨S8x512x512x16, .f32⟩
  | 86 => ⟨S_, .i32⟩
  | 87 => ⟨S8x512x512, .i32⟩
  | 88 => ⟨S8x512x512, .i32⟩
  | 89 => ⟨S_, .i32⟩
  | 90 => ⟨S8x512x512, .i32⟩
  | 91 => ⟨S8x512x512, .i32⟩
  | 92 => ⟨S8x512x512, .i32⟩
  | 93 => ⟨S8x262144x1, .i32⟩
  | 94 => ⟨S_, .i32⟩
  | 95 => ⟨S8x262144x1, .i32⟩
  | 96 => ⟨S8x262144x1, .i1⟩
  | 97 => ⟨S_, .i32⟩
  | 98 => ⟨S8x262144x1, .i32⟩
  | 99 => ⟨S8x262144x1, .i32⟩
  | 100 => ⟨S8x262144x1, .i32⟩
  | 101 => ⟨S1, .i32⟩
  | 102 => ⟨S_, .i32⟩
  | 103 => ⟨S8x262144x1, .i32⟩
  | 104 => ⟨S8x262144x1, .i1⟩
  | 105 => ⟨S1x1x1, .i32⟩
  | 106 => ⟨S8x262144x1, .i32⟩
  | 107 => ⟨S8x262144x1, .i1⟩
  | 108 => ⟨S8x262144x1, .i1⟩
  | 109 => ⟨S_, .i1⟩
  | 110 => ⟨S8x262144, .i1⟩
  | 111 => ⟨S8x262144x16, .f32⟩
  | 112 => ⟨S8x262144x16, .i1⟩
  | 113 => ⟨S_, .f32⟩
  | 114 => ⟨S8x262144x16, .f32⟩
  | 115 => ⟨S8x262144x16, .f32⟩
  | 116 => ⟨S8x512x512x16, .f32⟩
  | 117 => ⟨S_, .i32⟩
  | 118 => ⟨S8x512x512, .i32⟩
  | 119 => ⟨S8x512x512, .i32⟩
  | 120 => ⟨S_, .i32⟩
  | 121 => ⟨S8x512x512, .i32⟩
  | 122 => ⟨S8x512x512, .i32⟩
  | 123 => ⟨S8x512x512, .i32⟩
  | 124 => ⟨S8x262144x1, .i32⟩
  | 125 => ⟨S_, .i32⟩
  | 126 => ⟨S8x262144x1, .i32⟩
  | 127 => ⟨S8x262144x1, .i1⟩
  | _ => ⟨S8x512x512x16, .f32⟩

abbrev hbmTy0_1 (i : Nat) : BufTy := match i % 128 with
  | 0 => ⟨S_, .i32⟩
  | 1 => ⟨S8x262144x1, .i32⟩
  | 2 => ⟨S8x262144x1, .i32⟩
  | 3 => ⟨S8x262144x1, .i32⟩
  | 4 => ⟨S1, .i32⟩
  | 5 => ⟨S_, .i32⟩
  | 6 => ⟨S8x262144x1, .i32⟩
  | 7 => ⟨S8x262144x1, .i1⟩
  | 8 => ⟨S1x1x1, .i32⟩
  | 9 => ⟨S8x262144x1, .i32⟩
  | 10 => ⟨S8x262144x1, .i1⟩
  | 11 => ⟨S8x262144x1, .i1⟩
  | 12 => ⟨S_, .i1⟩
  | 13 => ⟨S8x262144, .i1⟩
  | 14 => ⟨S8x262144x16, .f32⟩
  | 15 => ⟨S8x262144x16, .i1⟩
  | 16 => ⟨S_, .f32⟩
  | 17 => ⟨S8x262144x16, .f32⟩
  | 18 => ⟨S8x262144x16, .f32⟩
  | 19 => ⟨S8x512x512x16, .f32⟩
  | 20 => ⟨S_, .i32⟩
  | 21 => ⟨S8x512x512, .i32⟩
  | 22 => ⟨S8x512x512, .i32⟩
  | 23 => ⟨S_, .i32⟩
  | 24 => ⟨S8x512x512, .i32⟩
  | 25 => ⟨S8x512x512, .i32⟩
  | 26 => ⟨S_, .i32⟩
  | 27 => ⟨S8x512x512, .i32⟩
  | 28 => ⟨S8x512x512, .i32⟩
  | 29 => ⟨S8x512x512, .i32⟩
  | 30 => ⟨S8x262144x1, .i32⟩
  | 31 => ⟨S_, .i32⟩
  | 32 => ⟨S8x262144x1, .i32⟩
  | 33 => ⟨S8x262144x1, .i1⟩
  | 34 => ⟨S_, .i32⟩
  | 35 => ⟨S8x262144x1, .i32⟩
  | 36 => ⟨S8x262144x1, .i32⟩
  | 37 => ⟨S8x262144x1, .i32⟩
  | 38 => ⟨S1, .i32⟩
  | 39 => ⟨S_, .i32⟩
  | 40 => ⟨S8x262144x1, .i32⟩
  | 41 => ⟨S8x262144x1, .i1⟩
  | 42 => ⟨S1x1x1, .i32⟩
  | 43 => ⟨S8x262144x1, .i32⟩
  | 44 => ⟨S8x262144x1, .i1⟩
  | 45 => ⟨S8x262144x1, .i1⟩
  | 46 => ⟨S_, .i1⟩
  | 47 => ⟨S8x262144, .i1⟩
  | 48 => ⟨S8x262144x16, .f32⟩
  | 49 => ⟨S8x262144x16, .i1⟩
  | 50 => ⟨S_, .f32⟩
  | 51 => ⟨S8x262144x16, .f32⟩
  | 52 => ⟨S8x262144x16, .f32⟩
  | 53 => ⟨S8x512x512x16, .f32⟩
  | 54 => ⟨S8x512x512x16, .f32⟩
  | _ => ⟨S8x512x512x16, .f32⟩

abbrev hbmTy (i : Nat) : BufTy := match i / 128 with
  | 0 => hbmTy0_0 i
  | 1 => hbmTy0_1 i
  | _ => ⟨S8x512x512x16, .f32⟩

abbrev bufTy : (tb : Table) → Fin (tcTables nBuf tb) → BufTy
  | .hbm, ⟨i, _⟩ => hbmTy i
  | .local _ .vmem, ⟨0, _⟩ => ⟨S1x64x512x16, .f32⟩
  | .local _ .vmem, ⟨1, _⟩ => ⟨S1x64x512x16, .f32⟩
  | .local _ .vmem, ⟨2, _⟩ => ⟨S1x64x512x16, .f32⟩
  | .local _ .vmem, ⟨3, _⟩ => ⟨S1x64x512x16, .f32⟩
  | .local _ .vmem, ⟨4, _⟩ => ⟨S1x64x512x16, .f32⟩
  | .local _ .vmem, ⟨5, _⟩ => ⟨S1x64x512x16, .f32⟩
  | .local _ .vmem, ⟨6, _⟩ => ⟨S1x64x512x16, .f32⟩
  | .local _ .vmem, ⟨7, _⟩ => ⟨S1x64x512x16, .f32⟩
  | .local _ .vmem, ⟨8, _⟩ => ⟨S1x64x512x1, .f32⟩
  | .local _ .vmem, ⟨9, _⟩ => ⟨S1x64x512x1, .f32⟩
  | .local _ .vmem, ⟨10, _⟩ => ⟨S1x64x512x1, .f32⟩
  | .local _ .vmem, ⟨11, _⟩ => ⟨S1x64x512x1, .f32⟩
  | .local _ .vmem, ⟨12, _⟩ => ⟨S1x64x512x16, .f32⟩
  | .local _ .vmem, ⟨13, _⟩ => ⟨S1x64x512x16, .f32⟩
  | _, _ => ⟨S8x512x512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_c_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_cst_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_cst_5 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_call4_c : Ref sig .tc := ⟨.hbm, 63, rfl⟩
abbrev main_call4_v0 : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_c_1 : Ref sig .tc := ⟨.hbm, 70, rfl⟩
abbrev main_call4_c_2 : Ref sig .tc := ⟨.hbm, 71, rfl⟩
abbrev main_call4_v5 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_call4_c_3 : Ref sig .tc := ⟨.hbm, 78, rfl⟩
abbrev main_call4_v11 : Ref sig .tc := ⟨.hbm, 79, rfl⟩
abbrev main_call4_v12 : Ref sig .tc := ⟨.hbm, 80, rfl⟩
abbrev main_call4_v13 : Ref sig .tc := ⟨.hbm, 81, rfl⟩
abbrev main_call4_cst : Ref sig .tc := ⟨.hbm, 82, rfl⟩
abbrev main_call4_v14 : Ref sig .tc := ⟨.hbm, 83, rfl⟩
abbrev main_v32 : Ref sig .tc := ⟨.hbm, 84, rfl⟩
abbrev main_v33 : Ref sig .tc := ⟨.hbm, 85, rfl⟩
abbrev main_c_7 : Ref sig .tc := ⟨.hbm, 86, rfl⟩
abbrev main_v34 : Ref sig .tc := ⟨.hbm, 87, rfl⟩
abbrev main_v35 : Ref sig .tc := ⟨.hbm, 88, rfl⟩
abbrev main_c_8 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_call5_c : Ref sig .tc := ⟨.hbm, 94, rfl⟩
abbrev main_call5_v0 : Ref sig .tc := ⟨.hbm, 95, rfl⟩
abbrev main_call5_v1 : Ref sig .tc := ⟨.hbm, 96, rfl⟩
abbrev main_call5_c_0 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_call5_c_1 : Ref sig .tc := ⟨.hbm, 101, rfl⟩
abbrev main_call5_c_2 : Ref sig .tc := ⟨.hbm, 102, rfl⟩
abbrev main_call5_v5 : Ref sig .tc := ⟨.hbm, 103, rfl⟩
abbrev main_call5_v6 : Ref sig .tc := ⟨.hbm, 104, rfl⟩
abbrev main_call5_v7 : Ref sig .tc := ⟨.hbm, 105, rfl⟩
abbrev main_call5_v8 : Ref sig .tc := ⟨.hbm, 106, rfl⟩
abbrev main_call5_v9 : Ref sig .tc := ⟨.hbm, 107, rfl⟩
abbrev main_call5_v10 : Ref sig .tc := ⟨.hbm, 108, rfl⟩
abbrev main_call5_c_3 : Ref sig .tc := ⟨.hbm, 109, rfl⟩
abbrev main_call5_v11 : Ref sig .tc := ⟨.hbm, 110, rfl⟩
abbrev main_call5_v12 : Ref sig .tc := ⟨.hbm, 111, rfl⟩
abbrev main_call5_v13 : Ref sig .tc := ⟨.hbm, 112, rfl⟩
abbrev main_call5_cst : Ref sig .tc := ⟨.hbm, 113, rfl⟩
abbrev main_call5_v14 : Ref sig .tc := ⟨.hbm, 114, rfl⟩
abbrev main_v40 : Ref sig .tc := ⟨.hbm, 115, rfl⟩
abbrev main_v41 : Ref sig .tc := ⟨.hbm, 116, rfl⟩
abbrev main_c_9 : Ref sig .tc := ⟨.hbm, 117, rfl⟩
abbrev main_v42 : Ref sig .tc := ⟨.hbm, 118, rfl⟩
abbrev main_v43 : Ref sig .tc := ⟨.hbm, 119, rfl⟩
abbrev main_c_10 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_call6_c : Ref sig .tc := ⟨.hbm, 125, rfl⟩
abbrev main_call6_v0 : Ref sig .tc := ⟨.hbm, 126, rfl⟩
abbrev main_call6_v1 : Ref sig .tc := ⟨.hbm, 127, rfl⟩
abbrev main_call6_c_0 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_c_1 : Ref sig .tc := ⟨.hbm, 132, rfl⟩
abbrev main_call6_c_2 : Ref sig .tc := ⟨.hbm, 133, rfl⟩
abbrev main_call6_v5 : Ref sig .tc := ⟨.hbm, 134, rfl⟩
abbrev main_call6_v6 : Ref sig .tc := ⟨.hbm, 135, rfl⟩
abbrev main_call6_v7 : Ref sig .tc := ⟨.hbm, 136, rfl⟩
abbrev main_call6_v8 : Ref sig .tc := ⟨.hbm, 137, rfl⟩
abbrev main_call6_v9 : Ref sig .tc := ⟨.hbm, 138, rfl⟩
abbrev main_call6_v10 : Ref sig .tc := ⟨.hbm, 139, rfl⟩
abbrev main_call6_c_3 : Ref sig .tc := ⟨.hbm, 140, rfl⟩
abbrev main_call6_v11 : Ref sig .tc := ⟨.hbm, 141, rfl⟩
abbrev main_call6_v12 : Ref sig .tc := ⟨.hbm, 142, rfl⟩
abbrev main_call6_v13 : Ref sig .tc := ⟨.hbm, 143, rfl⟩
abbrev main_call6_cst : Ref sig .tc := ⟨.hbm, 144, rfl⟩
abbrev main_call6_v14 : Ref sig .tc := ⟨.hbm, 145, rfl⟩
abbrev main_v48 : Ref sig .tc := ⟨.hbm, 146, rfl⟩
abbrev main_v49 : Ref sig .tc := ⟨.hbm, 147, rfl⟩
abbrev main_c_11 : Ref sig .tc := ⟨.hbm, 148, rfl⟩
abbrev main_v50 : Ref sig .tc := ⟨.hbm, 149, rfl⟩
abbrev main_v51 : Ref sig .tc := ⟨.hbm, 150, rfl⟩
abbrev main_c_12 : Ref sig .tc := ⟨.hbm, 151, rfl⟩
abbrev main_v52 : Ref sig .tc := ⟨.hbm, 152, rfl⟩
abbrev main_v53 : Ref sig .tc := ⟨.hbm, 153, rfl⟩
abbrev main_c_13 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_call7_c : Ref sig .tc := ⟨.hbm, 159, rfl⟩
abbrev main_call7_v0 : Ref sig .tc := ⟨.hbm, 160, rfl⟩
abbrev main_call7_v1 : Ref sig .tc := ⟨.hbm, 161, rfl⟩
abbrev main_call7_c_0 : Ref sig .tc := ⟨.hbm, 162, rfl⟩
abbrev main_call7_v2 : Ref sig .tc := ⟨.hbm, 163, rfl⟩
abbrev main_call7_v3 : Ref sig .tc := ⟨.hbm, 164, rfl⟩
abbrev main_call7_v4 : Ref sig .tc := ⟨.hbm, 165, rfl⟩
abbrev main_call7_c_1 : Ref sig .tc := ⟨.hbm, 166, rfl⟩
abbrev main_call7_c_2 : Ref sig .tc := ⟨.hbm, 167, rfl⟩
abbrev main_call7_v5 : Ref sig .tc := ⟨.hbm, 168, rfl⟩
abbrev main_call7_v6 : Ref sig .tc := ⟨.hbm, 169, rfl⟩
abbrev main_call7_v7 : Ref sig .tc := ⟨.hbm, 170, rfl⟩
abbrev main_call7_v8 : Ref sig .tc := ⟨.hbm, 171, rfl⟩
abbrev main_call7_v9 : Ref sig .tc := ⟨.hbm, 172, rfl⟩
abbrev main_call7_v10 : Ref sig .tc := ⟨.hbm, 173, rfl⟩
abbrev main_call7_c_3 : Ref sig .tc := ⟨.hbm, 174, rfl⟩
abbrev main_call7_v11 : Ref sig .tc := ⟨.hbm, 175, rfl⟩
abbrev main_call7_v12 : Ref sig .tc := ⟨.hbm, 176, rfl⟩
abbrev main_call7_v13 : Ref sig .tc := ⟨.hbm, 177, rfl⟩
abbrev main_call7_cst : Ref sig .tc := ⟨.hbm, 178, rfl⟩
abbrev main_call7_v14 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S512_S512x512_0 : S512.BroadcastsInDim S512x512 (![0] : Fin 1 → Fin S512x512.rank)
  bcast_S512_S512x512_1 : S512.BroadcastsInDim S512x512 (![1] : Fin 1 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  bcast_S512x512x2_S1x512x512x2_1_2_3 : S512x512x2.BroadcastsInDim S1x512x512x2 (![1, 2, 3] : Fin 3 → Fin S1x512x512x2.rank)
  bcast_S1x512x512x2_S8x512x512x2_0_1_2_3 : S1x512x512x2.BroadcastsInDim S8x512x512x2 (![0, 1, 2, 3] : Fin 4 → Fin S8x512x512x2.rank)
  slices_S8x512x512x2_S8x512x512x1_0_0_0_0 : S8x512x512x2.Slices ![0, 0, 0, 0] S8x512x512x1
  shapeCasts_S8x512x512x1_S8x512x512 : S8x512x512x1.ShapeCasts S8x512x512
  slices_S8x512x512x2_S8x512x512x1_0_0_0_1 : S8x512x512x2.Slices ![0, 0, 0, 1] S8x512x512x1
  bcast_S_S8x512x512 : S_.BroadcastsInDim S8x512x512 (![] : Fin 0 → Fin S8x512x512.rank)
  bcast_S8x512x512_S8x512x512x1_0_1_2 : S8x512x512.BroadcastsInDim S8x512x512x1 (![0, 1, 2] : Fin 3 → Fin S8x512x512x1.rank)
  shapeCasts_S8x512x512x16_S8x262144x16 : S8x512x512x16.ShapeCasts S8x262144x16
  shapeCasts_S8x512x512_S8x262144x1 : S8x512x512.ShapeCasts S8x262144x1
  bcast_S_S8x262144x1 : S_.BroadcastsInDim S8x262144x1 (![] : Fin 0 → Fin S8x262144x1.rank)
  bcast_S1_S1x1x1_2 : S1.BroadcastsInDim S1x1x1 (![2] : Fin 1 → Fin S1x1x1.rank)
  bcast_S1x1x1_S8x262144x1_0_1_2 : S1x1x1.BroadcastsInDim S8x262144x1 (![0, 1, 2] : Fin 3 → Fin S8x262144x1.rank)
  reducesTo_S8x262144x1_S8x262144_d2 : S8x262144x1.ReducesTo [2] S8x262144
  h_S_ : 0 < S_.numel
  bcast_S8x262144_S8x262144x16_0_1 : S8x262144.BroadcastsInDim S8x262144x16 (![0, 1] : Fin 2 → Fin S8x262144x16.rank)
  bcast_S_S8x262144x16 : S_.BroadcastsInDim S8x262144x16 (![] : Fin 0 → Fin S8x262144x16.rank)
  shapeCasts_S8x262144x16_S8x512x512x16 : S8x262144x16.ShapeCasts S8x512x512x16
  inb_S1x64x512x16_S1x64x512x16_0_0_0_0 : ∀ a, (![0, 0, 0, 0] : Fin 4 → Nat) a + S1x64x512x16.size a ≤ S1x64x512x16.size a
  h_S1x64x512x16 : 0 < S1x64x512x16.numel
  shapeCasts_S1x64x512x16_S1x64x512x16 : S1x64x512x16.ShapeCasts S1x64x512x16
  inb_S1x64x512x1_S1x64x512x1_0_0_0_0 : ∀ a, (![0, 0, 0, 0] : Fin 4 → Nat) a + S1x64x512x1.size a ≤ S1x64x512x1.size a
  h_S1x64x512x1 : 0 < S1x64x512x1.numel
  shapeCasts_S1x64x512x1_S1x64x512x1 : S1x64x512x1.ShapeCasts S1x64x512x1
  broadcasts_S1x64x512x1_S1x64x512x16 : S1x64x512x1.Broadcasts S1x64x512x16
  gather_S8x262144x16_S8x262144x1_S8x262144x16_2_1_0_0_1_2_1116_wf : GatherDims.WF S8x262144x16 S8x262144x1 S8x262144x16 [2] [1] [0] [1] [0] 2 ![1, 1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512x16.size a ≤ S8x512x512x16.size a
  hwx0_0 : ∀ i : grid0.Coords, EltTy.bits .f32 = 32 ∨ (Rect.block (s := S8x512x512x16) S1x64x512x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512x16.size a ≤ S8x512x512x16.size a
  hwx0_1 : ∀ i : grid0.Coords, EltTy.bits .f32 = 32 ∨ (Rect.block (s := S8x512x512x16) S1x64x512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512x16.size a ≤ S8x512x512x16.size a
  hwx0_2 : ∀ i : grid0.Coords, EltTy.bits .f32 = 32 ∨ (Rect.block (s := S8x512x512x16) S1x64x512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512x16.size a ≤ S8x512x512x16.size a
  hwx0_3 : ∀ i : grid0.Coords, EltTy.bits .f32 = 32 ∨ (Rect.block (s := S8x512x512x16) S1x64x512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512x1.size a ≤ S8x512x512x1.size a
  hwx0_4 : ∀ i : grid0.Coords, EltTy.bits .f32 = 32 ∨ (Rect.block (s := S8x512x512x1) S1x64x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x512x1.size a ≤ S8x512x512x1.size a
  hwx0_5 : ∀ i : grid0.Coords, EltTy.bits .f32 = 32 ∨ (Rect.block (s := S8x512x512x1) S1x64x512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x512x16.size a ≤ S8x512x512x16.size a
  hwx0_6 : ∀ i : grid0.Coords, EltTy.bits .f32 = 32 ∨ (Rect.block (s := S8x512x512x16) S1x64x512x16.size (cc0_transform_6 i) (hinb0_6 i)).WholeWords (EltTy.packing .f32)

variable [Facts₀]

def gather_S8x262144x16_S8x262144x1_S8x262144x16_2_1_0_0_1_2_1116 : GatherDims S8x262144x16 S8x262144x1 S8x262144x16 where
  offsetDims := [2]
  collapsedSliceDims := [1]
  operandBatchingDims := [0]
  startIndicesBatchingDims := [0]
  startIndexMap := [1]
  indexVectorDim := 2
  sliceSizes := ![1, 1, 16]
  wf := gather_S8x262144x16_S8x262144x1_S8x262144x16_2_1_0_0_1_2_1116_wf

abbrev win0_0 : Pipeline.Window sig grid0 :=
  Pipeline.Window.ofSpec (Memref.whole main_v33) S1x64x512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S1x64x512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1x64x512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v59) S1x64x512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64x512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v60) S1x64x512x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x512x512x16 : Shape := ⟨4, ![8, 512, 512, 16]⟩
abbrev S8x512x512x2 : Shape := ⟨4, ![8, 512, 512, 2]⟩
abbrev S512 : Shape := ⟨1, ![512]⟩
abbrev S512x512 : Shape := ⟨2, ![512, 512]⟩
abbrev S512x512x1 : Shape := ⟨3, ![512, 512, 1]⟩
abbrev S512x512x2 : Shape := ⟨3, ![512, 512, 2]⟩
abbrev S1x512x512x2 : Shape := ⟨4, ![1, 512, 512, 2]⟩
abbrev S8x512x512x1 : Shape := ⟨4, ![8, 512, 512, 1]⟩
abbrev S8x512x512 : Shape := ⟨3, ![8, 512, 512]⟩
abbrev S_ : Shape := ⟨0, ![]⟩
abbrev S8x262144x16 : Shape := ⟨3, ![8, 262144, 16]⟩
abbrev S8x262144x1 : Shape := ⟨3, ![8, 262144, 1]⟩
abbrev S1 : Shape := ⟨1, ![1]⟩
abbrev S1x1x1 : Shape := ⟨3, ![1, 1, 1]⟩
abbrev S8x262144 : Shape := ⟨2, ![8, 262144]⟩

abbrev nBuf : Space → Nat
  | .hbm => 194
  | .vmem => 0
  | .smem => 0
  | _ => 0

abbrev hbmTy0_0 (i : Nat) : BufTy := match i % 128 with
  | 0 => ⟨S8x512x512x16, .f32⟩
  | 1 => ⟨S8x512x512x2, .f32⟩
  | 2 => ⟨S512, .i32⟩
  | 3 => ⟨S512, .i32⟩
  | 4 => ⟨S512x512, .i32⟩
  | 5 => ⟨S512x512, .i32⟩
  | 6 => ⟨S512x512x1, .i32⟩
  | 7 => ⟨S512x512x1, .i32⟩
  | 8 => ⟨S512x512x2, .i32⟩
  | 9 => ⟨S512x512x2, .f32⟩
  | 10 => ⟨S1x512x512x2, .f32⟩
  | 11 => ⟨S8x512x512x2, .f32⟩
  | 12 => ⟨S8x512x512x2, .f32⟩
  | 13 => ⟨S8x512x512x1, .f32⟩
  | 14 => ⟨S8x512x512, .f32⟩
  | 15 => ⟨S8x512x512x1, .f32⟩
  | 16 => ⟨S8x512x512, .f32⟩
  | 17 => ⟨S8x512x512, .f32⟩
  | 18 => ⟨S_, .f32⟩
  | 19 => ⟨S_, .i32⟩
  | 20 => ⟨S_, .f32⟩
  | 21 => ⟨S8x512x512, .f32⟩
  | 22 => ⟨S8x512x512, .f32⟩
  | 23 => ⟨S_, .f32⟩
  | 24 => ⟨S8x512x512, .f32⟩
  | 25 => ⟨S8x512x512, .f32⟩
  | 26 => ⟨S8x512x512, .f32⟩
  | 27 => ⟨S_, .f32⟩
  | 28 => ⟨S_, .i32⟩
  | 29 => ⟨S_, .f32⟩
  | 30 => ⟨S8x512x512, .f32⟩
  | 31 => ⟨S8x512x512, .f32⟩
  | 32 => ⟨S_, .f32⟩
  | 33 => ⟨S8x512x512, .f32⟩
  | 34 => ⟨S8x512x512, .f32⟩
  | 35 => ⟨S8x512x512, .f32⟩
  | 36 => ⟨S_, .f32⟩
  | 37 => ⟨S_, .f32⟩
  | 38 => ⟨S_, .f32⟩
  | 39 => ⟨S8x512x512, .f32⟩
  | 40 => ⟨S8x512x512, .f32⟩
  | 41 => ⟨S_, .f32⟩
  | 42 => ⟨S8x512x512, .f32⟩
  | 43 => ⟨S8x512x512, .f32⟩
  | 44 => ⟨S8x512x512x1, .f32⟩
  | 45 => ⟨S8x512x512, .f32⟩
  | 46 => ⟨S_, .f32⟩
  | 47 => ⟨S_, .f32⟩
  | 48 => ⟨S_, .f32⟩
  | 49 => ⟨S8x512x512, .f32⟩
  | 50 => ⟨S8x512x512, .f32⟩
  | 51 => ⟨S_, .f32⟩
  | 52 => ⟨S8x512x512, .f32⟩
  | 53 => ⟨S8x512x512, .f32⟩
  | 54 => ⟨S8x512x512x1, .f32⟩
  | 55 => ⟨S8x512x512, .i32⟩
  | 56 => ⟨S8x512x512, .i32⟩
  | 57 => ⟨S8x262144x16, .f32⟩
  | 58 => ⟨S_, .i32⟩
  | 59 => ⟨S8x512x512, .i32⟩
  | 60 => ⟨S8x512x512, .i32⟩
  | 61 => ⟨S8x512x512, .i32⟩
  | 62 => ⟨S8x262144x1, .i32⟩
  | 63 => ⟨S_, .i32⟩
  | 64 => ⟨S8x262144x1, .i32⟩
  | 65 => ⟨S8x262144x1, .i1⟩
  | 66 => ⟨S_, .i32⟩
  | 67 => ⟨S8x262144x1, .i32⟩
  | 68 => ⟨S8x262144x1, .i32⟩
  | 69 => ⟨S8x262144x1, .i32⟩
  | 70 => ⟨S1, .i32⟩
  | 71 => ⟨S_, .i32⟩
  | 72 => ⟨S8x262144x1, .i32⟩
  | 73 => ⟨S8x262144x1, .i1⟩
  | 74 => ⟨S1x1x1, .i32⟩
  | 75 => ⟨S8x262144x1, .i32⟩
  | 76 => ⟨S8x262144x1, .i1⟩
  | 77 => ⟨S8x262144x1, .i1⟩
  | 78 => ⟨S_, .i1⟩
  | 79 => ⟨S8x262144, .i1⟩
  | 80 => ⟨S8x262144x16, .f32⟩
  | 81 => ⟨S8x262144x16, .i1⟩
  | 82 => ⟨S_, .f32⟩
  | 83 => ⟨S8x262144x16, .f32⟩
  | 84 => ⟨S8x262144x16, .f32⟩
  | 85 => ⟨S8x512x512x16, .f32⟩
  | 86 => ⟨S_, .i32⟩
  | 87 => ⟨S8x512x512, .i32⟩
  | 88 => ⟨S8x512x512, .i32⟩
  | 89 => ⟨S_, .i32⟩
  | 90 => ⟨S8x512x512, .i32⟩
  | 91 => ⟨S8x512x512, .i32⟩
  | 92 => ⟨S8x512x512, .i32⟩
  | 93 => ⟨S8x262144x1, .i32⟩
  | 94 => ⟨S_, .i32⟩
  | 95 => ⟨S8x262144x1, .i32⟩
  | 96 => ⟨S8x262144x1, .i1⟩
  | 97 => ⟨S_, .i32⟩
  | 98 => ⟨S8x262144x1, .i32⟩
  | 99 => ⟨S8x262144x1, .i32⟩
  | 100 => ⟨S8x262144x1, .i32⟩
  | 101 => ⟨S1, .i32⟩
  | 102 => ⟨S_, .i32⟩
  | 103 => ⟨S8x262144x1, .i32⟩
  | 104 => ⟨S8x262144x1, .i1⟩
  | 105 => ⟨S1x1x1, .i32⟩
  | 106 => ⟨S8x262144x1, .i32⟩
  | 107 => ⟨S8x262144x1, .i1⟩
  | 108 => ⟨S8x262144x1, .i1⟩
  | 109 => ⟨S_, .i1⟩
  | 110 => ⟨S8x262144, .i1⟩
  | 111 => ⟨S8x262144x16, .f32⟩
  | 112 => ⟨S8x262144x16, .i1⟩
  | 113 => ⟨S_, .f32⟩
  | 114 => ⟨S8x262144x16, .f32⟩
  | 115 => ⟨S8x262144x16, .f32⟩
  | 116 => ⟨S8x512x512x16, .f32⟩
  | 117 => ⟨S_, .i32⟩
  | 118 => ⟨S8x512x512, .i32⟩
  | 119 => ⟨S8x512x512, .i32⟩
  | 120 => ⟨S_, .i32⟩
  | 121 => ⟨S8x512x512, .i32⟩
  | 122 => ⟨S8x512x512, .i32⟩
  | 123 => ⟨S8x512x512, .i32⟩
  | 124 => ⟨S8x262144x1, .i32⟩
  | 125 => ⟨S_, .i32⟩
  | 126 => ⟨S8x262144x1, .i32⟩
  | 127 => ⟨S8x262144x1, .i1⟩
  | _ => ⟨S8x512x512x16, .f32⟩

abbrev hbmTy0_1 (i : Nat) : BufTy := match i % 128 with
  | 0 => ⟨S_, .i32⟩
  | 1 => ⟨S8x262144x1, .i32⟩
  | 2 => ⟨S8x262144x1, .i32⟩
  | 3 => ⟨S8x262144x1, .i32⟩
  | 4 => ⟨S1, .i32⟩
  | 5 => ⟨S_, .i32⟩
  | 6 => ⟨S8x262144x1, .i32⟩
  | 7 => ⟨S8x262144x1, .i1⟩
  | 8 => ⟨S1x1x1, .i32⟩
  | 9 => ⟨S8x262144x1, .i32⟩
  | 10 => ⟨S8x262144x1, .i1⟩
  | 11 => ⟨S8x262144x1, .i1⟩
  | 12 => ⟨S_, .i1⟩
  | 13 => ⟨S8x262144, .i1⟩
  | 14 => ⟨S8x262144x16, .f32⟩
  | 15 => ⟨S8x262144x16, .i1⟩
  | 16 => ⟨S_, .f32⟩
  | 17 => ⟨S8x262144x16, .f32⟩
  | 18 => ⟨S8x262144x16, .f32⟩
  | 19 => ⟨S8x512x512x16, .f32⟩
  | 20 => ⟨S_, .i32⟩
  | 21 => ⟨S8x512x512, .i32⟩
  | 22 => ⟨S8x512x512, .i32⟩
  | 23 => ⟨S_, .i32⟩
  | 24 => ⟨S8x512x512, .i32⟩
  | 25 => ⟨S8x512x512, .i32⟩
  | 26 => ⟨S_, .i32⟩
  | 27 => ⟨S8x512x512, .i32⟩
  | 28 => ⟨S8x512x512, .i32⟩
  | 29 => ⟨S8x512x512, .i32⟩
  | 30 => ⟨S8x262144x1, .i32⟩
  | 31 => ⟨S_, .i32⟩
  | 32 => ⟨S8x262144x1, .i32⟩
  | 33 => ⟨S8x262144x1, .i1⟩
  | 34 => ⟨S_, .i32⟩
  | 35 => ⟨S8x262144x1, .i32⟩
  | 36 => ⟨S8x262144x1, .i32⟩
  | 37 => ⟨S8x262144x1, .i32⟩
  | 38 => ⟨S1, .i32⟩
  | 39 => ⟨S_, .i32⟩
  | 40 => ⟨S8x262144x1, .i32⟩
  | 41 => ⟨S8x262144x1, .i1⟩
  | 42 => ⟨S1x1x1, .i32⟩
  | 43 => ⟨S8x262144x1, .i32⟩
  | 44 => ⟨S8x262144x1, .i1⟩
  | 45 => ⟨S8x262144x1, .i1⟩
  | 46 => ⟨S_, .i1⟩
  | 47 => ⟨S8x262144, .i1⟩
  | 48 => ⟨S8x262144x16, .f32⟩
  | 49 => ⟨S8x262144x16, .i1⟩
  | 50 => ⟨S_, .f32⟩
  | 51 => ⟨S8x262144x16, .f32⟩
  | 52 => ⟨S8x262144x16, .f32⟩
  | 53 => ⟨S8x512x512x16, .f32⟩
  | 54 => ⟨S8x512x512x16, .f32⟩
  | 55 => ⟨S8x512x512x16, .f32⟩
  | 56 => ⟨S8x512x512x16, .f32⟩
  | 57 => ⟨S8x512x512x16, .f32⟩
  | 58 => ⟨S8x512x512x16, .f32⟩
  | 59 => ⟨S8x512x512x16, .f32⟩
  | 60 => ⟨S8x512x512x16, .f32⟩
  | 61 => ⟨S8x512x512x16, .f32⟩
  | 62 => ⟨S8x512x512x16, .f32⟩
  | 63 => ⟨S8x512x512x16, .f32⟩
  | 64 => ⟨S8x512x512x16, .f32⟩
  | 65 => ⟨S8x512x512x16, .f32⟩
  | _ => ⟨S8x512x512x16, .f32⟩

abbrev hbmTy (i : Nat) : BufTy := match i / 128 with
  | 0 => hbmTy0_0 i
  | 1 => hbmTy0_1 i
  | _ => ⟨S8x512x512x16, .f32⟩

abbrev bufTy : (tb : Table) → Fin (tcTables nBuf tb) → BufTy
  | .hbm, ⟨i, _⟩ => hbmTy i
  | _, _ => ⟨S8x512x512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_c_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_cst_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_cst_5 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_call4_c : Ref sig .tc := ⟨.hbm, 63, rfl⟩
abbrev main_call4_v0 : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_c_1 : Ref sig .tc := ⟨.hbm, 70, rfl⟩
abbrev main_call4_c_2 : Ref sig .tc := ⟨.hbm, 71, rfl⟩
abbrev main_call4_v5 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_call4_c_3 : Ref sig .tc := ⟨.hbm, 78, rfl⟩
abbrev main_call4_v11 : Ref sig .tc := ⟨.hbm, 79, rfl⟩
abbrev main_call4_v12 : Ref sig .tc := ⟨.hbm, 80, rfl⟩
abbrev main_call4_v13 : Ref sig .tc := ⟨.hbm, 81, rfl⟩
abbrev main_call4_cst : Ref sig .tc := ⟨.hbm, 82, rfl⟩
abbrev main_call4_v14 : Ref sig .tc := ⟨.hbm, 83, rfl⟩
abbrev main_v32 : Ref sig .tc := ⟨.hbm, 84, rfl⟩
abbrev main_v33 : Ref sig .tc := ⟨.hbm, 85, rfl⟩
abbrev main_c_7 : Ref sig .tc := ⟨.hbm, 86, rfl⟩
abbrev main_v34 : Ref sig .tc := ⟨.hbm, 87, rfl⟩
abbrev main_v35 : Ref sig .tc := ⟨.hbm, 88, rfl⟩
abbrev main_c_8 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_call5_c : Ref sig .tc := ⟨.hbm, 94, rfl⟩
abbrev main_call5_v0 : Ref sig .tc := ⟨.hbm, 95, rfl⟩
abbrev main_call5_v1 : Ref sig .tc := ⟨.hbm, 96, rfl⟩
abbrev main_call5_c_0 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_call5_c_1 : Ref sig .tc := ⟨.hbm, 101, rfl⟩
abbrev main_call5_c_2 : Ref sig .tc := ⟨.hbm, 102, rfl⟩
abbrev main_call5_v5 : Ref sig .tc := ⟨.hbm, 103, rfl⟩
abbrev main_call5_v6 : Ref sig .tc := ⟨.hbm, 104, rfl⟩
abbrev main_call5_v7 : Ref sig .tc := ⟨.hbm, 105, rfl⟩
abbrev main_call5_v8 : Ref sig .tc := ⟨.hbm, 106, rfl⟩
abbrev main_call5_v9 : Ref sig .tc := ⟨.hbm, 107, rfl⟩
abbrev main_call5_v10 : Ref sig .tc := ⟨.hbm, 108, rfl⟩
abbrev main_call5_c_3 : Ref sig .tc := ⟨.hbm, 109, rfl⟩
abbrev main_call5_v11 : Ref sig .tc := ⟨.hbm, 110, rfl⟩
abbrev main_call5_v12 : Ref sig .tc := ⟨.hbm, 111, rfl⟩
abbrev main_call5_v13 : Ref sig .tc := ⟨.hbm, 112, rfl⟩
abbrev main_call5_cst : Ref sig .tc := ⟨.hbm, 113, rfl⟩
abbrev main_call5_v14 : Ref sig .tc := ⟨.hbm, 114, rfl⟩
abbrev main_v40 : Ref sig .tc := ⟨.hbm, 115, rfl⟩
abbrev main_v41 : Ref sig .tc := ⟨.hbm, 116, rfl⟩
abbrev main_c_9 : Ref sig .tc := ⟨.hbm, 117, rfl⟩
abbrev main_v42 : Ref sig .tc := ⟨.hbm, 118, rfl⟩
abbrev main_v43 : Ref sig .tc := ⟨.hbm, 119, rfl⟩
abbrev main_c_10 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_call6_c : Ref sig .tc := ⟨.hbm, 125, rfl⟩
abbrev main_call6_v0 : Ref sig .tc := ⟨.hbm, 126, rfl⟩
abbrev main_call6_v1 : Ref sig .tc := ⟨.hbm, 127, rfl⟩
abbrev main_call6_c_0 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_c_1 : Ref sig .tc := ⟨.hbm, 132, rfl⟩
abbrev main_call6_c_2 : Ref sig .tc := ⟨.hbm, 133, rfl⟩
abbrev main_call6_v5 : Ref sig .tc := ⟨.hbm, 134, rfl⟩
abbrev main_call6_v6 : Ref sig .tc := ⟨.hbm, 135, rfl⟩
abbrev main_call6_v7 : Ref sig .tc := ⟨.hbm, 136, rfl⟩
abbrev main_call6_v8 : Ref sig .tc := ⟨.hbm, 137, rfl⟩
abbrev main_call6_v9 : Ref sig .tc := ⟨.hbm, 138, rfl⟩
abbrev main_call6_v10 : Ref sig .tc := ⟨.hbm, 139, rfl⟩
abbrev main_call6_c_3 : Ref sig .tc := ⟨.hbm, 140, rfl⟩
abbrev main_call6_v11 : Ref sig .tc := ⟨.hbm, 141, rfl⟩
abbrev main_call6_v12 : Ref sig .tc := ⟨.hbm, 142, rfl⟩
abbrev main_call6_v13 : Ref sig .tc := ⟨.hbm, 143, rfl⟩
abbrev main_call6_cst : Ref sig .tc := ⟨.hbm, 144, rfl⟩
abbrev main_call6_v14 : Ref sig .tc := ⟨.hbm, 145, rfl⟩
abbrev main_v48 : Ref sig .tc := ⟨.hbm, 146, rfl⟩
abbrev main_v49 : Ref sig .tc := ⟨.hbm, 147, rfl⟩
abbrev main_c_11 : Ref sig .tc := ⟨.hbm, 148, rfl⟩
abbrev main_v50 : Ref sig .tc := ⟨.hbm, 149, rfl⟩
abbrev main_v51 : Ref sig .tc := ⟨.hbm, 150, rfl⟩
abbrev main_c_12 : Ref sig .tc := ⟨.hbm, 151, rfl⟩
abbrev main_v52 : Ref sig .tc := ⟨.hbm, 152, rfl⟩
abbrev main_v53 : Ref sig .tc := ⟨.hbm, 153, rfl⟩
abbrev main_c_13 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_call7_c : Ref sig .tc := ⟨.hbm, 159, rfl⟩
abbrev main_call7_v0 : Ref sig .tc := ⟨.hbm, 160, rfl⟩
abbrev main_call7_v1 : Ref sig .tc := ⟨.hbm, 161, rfl⟩
abbrev main_call7_c_0 : Ref sig .tc := ⟨.hbm, 162, rfl⟩
abbrev main_call7_v2 : Ref sig .tc := ⟨.hbm, 163, rfl⟩
abbrev main_call7_v3 : Ref sig .tc := ⟨.hbm, 164, rfl⟩
abbrev main_call7_v4 : Ref sig .tc := ⟨.hbm, 165, rfl⟩
abbrev main_call7_c_1 : Ref sig .tc := ⟨.hbm, 166, rfl⟩
abbrev main_call7_c_2 : Ref sig .tc := ⟨.hbm, 167, rfl⟩
abbrev main_call7_v5 : Ref sig .tc := ⟨.hbm, 168, rfl⟩
abbrev main_call7_v6 : Ref sig .tc := ⟨.hbm, 169, rfl⟩
abbrev main_call7_v7 : Ref sig .tc := ⟨.hbm, 170, rfl⟩
abbrev main_call7_v8 : Ref sig .tc := ⟨.hbm, 171, rfl⟩
abbrev main_call7_v9 : Ref sig .tc := ⟨.hbm, 172, rfl⟩
abbrev main_call7_v10 : Ref sig .tc := ⟨.hbm, 173, rfl⟩
abbrev main_call7_c_3 : Ref sig .tc := ⟨.hbm, 174, rfl⟩
abbrev main_call7_v11 : Ref sig .tc := ⟨.hbm, 175, rfl⟩
abbrev main_call7_v12 : Ref sig .tc := ⟨.hbm, 176, rfl⟩
abbrev main_call7_v13 : Ref sig .tc := ⟨.hbm, 177, rfl⟩
abbrev main_call7_cst : Ref sig .tc := ⟨.hbm, 178, rfl⟩
abbrev main_call7_v14 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩
abbrev main_v65 : Ref sig .tc := ⟨.hbm, 187, rfl⟩
abbrev main_v66 : Ref sig .tc := ⟨.hbm, 188, rfl⟩
abbrev main_v67 : Ref sig .tc := ⟨.hbm, 189, rfl⟩
abbrev main_v68 : Ref sig .tc := ⟨.hbm, 190, rfl⟩
abbrev main_v69 : Ref sig .tc := ⟨.hbm, 191, rfl⟩
abbrev main_v70 : Ref sig .tc := ⟨.hbm, 192, rfl⟩
abbrev main_v71 : Ref sig .tc := ⟨.hbm, 193, rfl⟩

abbrev nD : Nat := 1
abbrev τ : Topo := Topo.v7x

variable {F : FTy → Type} [FloatOps F]

class Facts₀ : Prop where
  bcast_S512_S512x512_0 : S512.BroadcastsInDim S512x512 (![0] : Fin 1 → Fin S512x512.rank)
  bcast_S512_S512x512_1 : S512.BroadcastsInDim S512x512 (![1] : Fin 1 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  bcast_S512x512x2_S1x512x512x2_1_2_3 : S512x512x2.BroadcastsInDim S1x512x512x2 (![1, 2, 3] : Fin 3 → Fin S1x512x512x2.rank)
  bcast_S1x512x512x2_S8x512x512x2_0_1_2_3 : S1x512x512x2.BroadcastsInDim S8x512x512x2 (![0, 1, 2, 3] : Fin 4 → Fin S8x512x512x2.rank)
  slices_S8x512x512x2_S8x512x512x1_0_0_0_0 : S8x512x512x2.Slices ![0, 0, 0, 0] S8x512x512x1
  shapeCasts_S8x512x512x1_S8x512x512 : S8x512x512x1.ShapeCasts S8x512x512
  slices_S8x512x512x2_S8x512x512x1_0_0_0_1 : S8x512x512x2.Slices ![0, 0, 0, 1] S8x512x512x1
  bcast_S_S8x512x512 : S_.BroadcastsInDim S8x512x512 (![] : Fin 0 → Fin S8x512x512.rank)
  bcast_S8x512x512_S8x512x512x1_0_1_2 : S8x512x512.BroadcastsInDim S8x512x512x1 (![0, 1, 2] : Fin 3 → Fin S8x512x512x1.rank)
  shapeCasts_S8x512x512x16_S8x262144x16 : S8x512x512x16.ShapeCasts S8x262144x16
  shapeCasts_S8x512x512_S8x262144x1 : S8x512x512.ShapeCasts S8x262144x1
  bcast_S_S8x262144x1 : S_.BroadcastsInDim S8x262144x1 (![] : Fin 0 → Fin S8x262144x1.rank)
  bcast_S1_S1x1x1_2 : S1.BroadcastsInDim S1x1x1 (![2] : Fin 1 → Fin S1x1x1.rank)
  bcast_S1x1x1_S8x262144x1_0_1_2 : S1x1x1.BroadcastsInDim S8x262144x1 (![0, 1, 2] : Fin 3 → Fin S8x262144x1.rank)
  reducesTo_S8x262144x1_S8x262144_d2 : S8x262144x1.ReducesTo [2] S8x262144
  h_S_ : 0 < S_.numel
  bcast_S8x262144_S8x262144x16_0_1 : S8x262144.BroadcastsInDim S8x262144x16 (![0, 1] : Fin 2 → Fin S8x262144x16.rank)
  bcast_S_S8x262144x16 : S_.BroadcastsInDim S8x262144x16 (![] : Fin 0 → Fin S8x262144x16.rank)
  shapeCasts_S8x262144x16_S8x512x512x16 : S8x262144x16.ShapeCasts S8x512x512x16
  bcast_S8x512x512x1_S8x512x512x16_0_1_2_3 : S8x512x512x1.BroadcastsInDim S8x512x512x16 (![0, 1, 2, 3] : Fin 4 → Fin S8x512x512x16.rank)
  gather_S8x262144x16_S8x262144x1_S8x262144x16_2_1_0_0_1_2_1116_wf : GatherDims.WF S8x262144x16 S8x262144x1 S8x262144x16 [2] [1] [0] [1] [0] 2 ![1, 1, 16]

variable [Facts₀]

def gather_S8x262144x16_S8x262144x1_S8x262144x16_2_1_0_0_1_2_1116 : GatherDims S8x262144x16 S8x262144x1 S8x262144x16 where
  offsetDims := [2]
  collapsedSliceDims := [1]
  operandBatchingDims := [0]
  startIndicesBatchingDims := [0]
  startIndexMap := [1]
  indexVectorDim := 2
  sliceSizes := ![1, 1, 16]
  wf := gather_S8x262144x16_S8x262144x1_S8x262144x16_2_1_0_0_1_2_1116_wf

class Facts : Prop extends Facts₀ where

variable [Facts]
-- ==== Proof.Blend.lean ====
/-
  The bilinear blend, entry by entry.

  Four images hold, for every output pixel, the four source pixels around its query point (top-left, top-right,
  bottom-left, bottom-right), and two weight maps hold the pixel's horizontal and vertical fractions, one weight per
  pixel (their channel axis has extent one). An output entry at (batch, row, column, channel) interpolates along the
  columns first, `top = tl + ax · (tr − tl)` and `bot = bl + ax · (br − bl)`, then along the rows,
  `top + ay · (bot − top)`, every weight read at the entry's pixel, that is at its index with the channel set to 0.
  The definition uses the float operations of any instance and no law of arithmetic.
-/
import Idealize.ShloMosaic.PureOps

noncomputable section

namespace Cert.Blend

open Idealize.ShloMosaic

variable {F : FTy → Type} [FloatOps F]

/-- An image: batch × rows × columns × channels. -/
abbrev Img : Shape := ⟨4, ![8, 512, 512, 16]⟩
/-- A weight map: one weight per pixel. -/
abbrev Wt : Shape := ⟨4, ![8, 512, 512, 1]⟩

/-- The pixel an image entry belongs to: the entry's index with the channel coordinate set to 0. -/
abbrev pixel (i : Img.Idx) : Wt.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩

/-- Linear interpolation from `a` towards `b` by the weight `w`: `a + w · (b − a)`. -/
def lerp (a b w : Elt F .f32) : Elt F .f32 := FloatOps.addf a (FloatOps.mulf w (FloatOps.subf b a))

/-- The blended image: along the columns by `ax` on the top pair and on the bottom pair, then along the rows by `ay`. -/
def blend (tl tr bl br : Img.Idx → Elt F .f32) (ax ay : Wt.Idx → Elt F .f32) : Img.Idx → Elt F .f32 := fun i =>
  lerp (lerp (tl i) (tr i) (ax (pixel i))) (lerp (bl i) (br i) (ax (pixel i))) (ay (pixel i))

/-- The blend at an entry, written out. -/
theorem blend_apply (tl tr bl br : Img.Idx → Elt F .f32) (ax ay : Wt.Idx → Elt F .f32) (i : Img.Idx) :
    blend tl tr bl br ax ay i
      = FloatOps.addf (FloatOps.addf (tl i) (FloatOps.mulf (ax (pixel i)) (FloatOps.subf (tr i) (tl i))))
          (FloatOps.mulf (ay (pixel i))
            (FloatOps.subf (FloatOps.addf (bl i) (FloatOps.mulf (ax (pixel i)) (FloatOps.subf (br i) (bl i))))
              (FloatOps.addf (tl i) (FloatOps.mulf (ax (pixel i)) (FloatOps.subf (tr i) (tl i)))))) := rfl

end Cert.Blend

end
-- ==== Proof.KernelBlend.lean ====
/-
  What the kernel's call leaves in its result array: the bilinear blend of the six arrays it stages.

  The call runs on an 8 × 8 grid. At the point (b, h) every window's block is batch b, rows 64·h … 64·h + 63, all
  columns, and all channels (one channel for the two weight maps): the seven index maps are the same, (b, h, 0, 0).
  The body reads the six input blocks whole and stores `top + ay · (bot − top)` with `top = tl + ax · (tr − tl)` and
  `bot = bl + ax · (br − bl)`, the weight blocks broadcast along the channels; entry by entry this is the generated
  `canon6_eq`. An entry of an input block is the array's entry at the block's offset, and a weight block's entry
  under an image entry is the weight map's entry at that entry's pixel. So what a point writes back is its block of
  the blend of the six arrays as the call finds them (`flushed_eq`). The 64 blocks tile the result array (the block
  of the entry (b, r, ·, ·) is the point (b, r / 64)), so the array ends as the blend (`final`, `run`).
-/
import proofs.«147620_j35158602285814_1_alg».proof.Proof.Gen.KernelIdeal.Value
import proofs.«147620_j35158602285814_1_alg».proof.Proof.Blend
import Idealize.ShloMosaic.Lib.Pipeline.Value

noncomputable section

open Idealize.ShloMosaic Idealize.ShloMosaic.TcCoe Idealize.SL.Sem
open Idealize.ShloMosaic.Pipeline (Dat)

namespace Cert.KernelIdeal.Warp

open Cert.KernelIdeal Cert.KernelIdeal.Gen Cert.KernelIdeal.Value

variable {F : FTy → Type} [FloatOps F]
variable (m : (ℓ : Loc nD τ sig) → Buf (Elt F) ℓ) (ρ : Dev nD → PrngReg)

theorem hz : (![0, 0, 0, 0] : Fin 4 → Nat) = fun _ => 0 := funext fun a => by fin_cases a <;> rfl

/-- The blend of the six arrays as the call finds them, window by window: the four gathered images (windows 0 to 3:
    top-left, top-right, bottom-left, bottom-right) by the horizontal and the vertical weight maps (windows 4 and 5). -/
abbrev blended (c : Dev nD) : S8x512x512x16.Idx → Elt F .f32 :=
  Cert.Blend.blend (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5))

/-- The printed index maps, decided over the 64 grid points: every input window's block index is the result window's,
    which is (b, h, 0, 0) with b, h ≤ 7. -/
theorem idx_facts : ∀ t : Fin cfg0.N, win0_0.index t (0 : Fin 4) = win0_6.index t (0 : Fin 4)
    ∧ win0_0.index t (1 : Fin 4) = win0_6.index t (1 : Fin 4)
    ∧ win0_0.index t (2 : Fin 4) = win0_6.index t (2 : Fin 4)
    ∧ win0_0.index t (3 : Fin 4) = win0_6.index t (3 : Fin 4)
    ∧ win0_1.index t (0 : Fin 4) = win0_6.index t (0 : Fin 4)
    ∧ win0_1.index t (1 : Fin 4) = win0_6.index t (1 : Fin 4)
    ∧ win0_1.index t (2 : Fin 4) = win0_6.index t (2 : Fin 4)
    ∧ win0_1.index t (3 : Fin 4) = win0_6.index t (3 : Fin 4)
    ∧ win0_2.index t (0 : Fin 4) = win0_6.index t (0 : Fin 4)
    ∧ win0_2.index t (1 : Fin 4) = win0_6.index t (1 : Fin 4)
    ∧ win0_2.index t (2 : Fin 4) = win0_6.index t (2 : Fin 4)
    ∧ win0_2.index t (3 : Fin 4) = win0_6.index t (3 : Fin 4)
    ∧ win0_3.index t (0 : Fin 4) = win0_6.index t (0 : Fin 4)
    ∧ win0_3.index t (1 : Fin 4) = win0_6.index t (1 : Fin 4)
    ∧ win0_3.index t (2 : Fin 4) = win0_6.index t (2 : Fin 4)
    ∧ win0_3.index t (3 : Fin 4) = win0_6.index t (3 : Fin 4)
    ∧ win0_4.index t (0 : Fin 4) = win0_6.index t (0 : Fin 4)
    ∧ win0_4.index t (1 : Fin 4) = win0_6.index t (1 : Fin 4)
    ∧ win0_4.index t (2 : Fin 4) = win0_6.index t (2 : Fin 4)
    ∧ win0_4.index t (3 : Fin 4) = win0_6.index t (3 : Fin 4)
    ∧ win0_5.index t (0 : Fin 4) = win0_6.index t (0 : Fin 4)
    ∧ win0_5.index t (1 : Fin 4) = win0_6.index t (1 : Fin 4)
    ∧ win0_5.index t (2 : Fin 4) = win0_6.index t (2 : Fin 4)
    ∧ win0_5.index t (3 : Fin 4) = win0_6.index t (3 : Fin 4)
    ∧ win0_6.index t (0 : Fin 4) ≤ 7
    ∧ win0_6.index t (1 : Fin 4) ≤ 7
    ∧ win0_6.index t (2 : Fin 4) = 0
    ∧ win0_6.index t (3 : Fin 4) = 0 :=
  (by decide +kernel : ∀ t : Fin grid0.N, _)

/-- Every pair (b, h) is some point's block index. -/
theorem idx_onto : ∀ (q0 : Fin 8) (q1 : Fin 8), ∃ t : Fin cfg0.N, win0_6.index t = ![q0.val, q1.val, 0, 0] :=
  (by decide +kernel : ∀ (q0 : Fin 8) (q1 : Fin 8), ∃ t : Fin grid0.N, win0_6.index t = ![q0.val, q1.val, 0, 0])

/-- ONE POINT, for arbitrary arrays: if the six windows' blocks at the point `t` are read off any six arrays, the body's
    store, cut to the block the point writes back, is the point's block of the blend of those arrays. (An entry of an
    image block is the image's entry at the same place of the result's block; an entry of a weight block under it is
    the weight at that entry's pixel: the seven index maps are one.) -/
theorem block_blend (t : Fin cfg0.N) (X0 : S8x512x512x16.Idx → Elt F .f32) (X1 : S8x512x512x16.Idx → Elt F .f32) (X2 : S8x512x512x16.Idx → Elt F .f32) (X3 : S8x512x512x16.Idx → Elt F .f32) (X4 : S8x512x512x1.Idx → Elt F .f32) (X5 : S8x512x512x1.Idx → Elt F .f32) :
    (cfg0.win 6).cut (grid0.coords t)
        (View.canon [⟨r0_0, k0_pay1 (((cfg0.win 0).blk t).view.read (Elt F) X0) (((cfg0.win 1).blk t).view.read (Elt F) X1) (((cfg0.win 2).blk t).view.read (Elt F) X2) (((cfg0.win 3).blk t).view.read (Elt F) X3) (((cfg0.win 4).blk t).view.read (Elt F) X4) (((cfg0.win 5).blk t).view.read (Elt F) X5)⟩])
      = ((cfg0.win 6).blk t).view.read (Elt F) (Cert.Blend.blend X0 X1 X2 X3 X4 X5) := by
  obtain ⟨f0, f1, f2, f3, f4, f5, f6, f7, f8, f9, f10, f11, f12, f13, f14, f15, f16, f17, f18, f19, f20, f21, f22, f23, f24, f25, f26, f27⟩ := idx_facts t
  funext j
  refine (canon6_eq (((cfg0.win 0).blk t).view.read (Elt F) X0) (((cfg0.win 4).blk t).view.read (Elt F) X4) (((cfg0.win 1).blk t).view.read (Elt F) X1) (((cfg0.win 5).blk t).view.read (Elt F) X5) (((cfg0.win 2).blk t).view.read (Elt F) X2) (((cfg0.win 3).blk t).view.read (Elt F) X3) _).trans ?_
  show _ = Cert.Blend.blend X0 X1 X2 X3 X4 X5 (((cfg0.win 6).blk t).view.emb j)
  rw [Cert.Blend.blend_apply]
  have hj0 : (j 0).val < 1 := (j 0).isLt
  have e0 : ((cfg0.win 0).blk t).view.emb (ix6_0 ((cfg0.win 6).xinj (grid0.coords t) j)) = ((cfg0.win 6).blk t).view.emb j := by
    funext a; apply Fin.ext
    match a with
    | ⟨0, _⟩ => show win0_0.index t (0 : Fin 4) * 1 + 1 * 0 = win0_6.index t (0 : Fin 4) * 1 + 1 * (j 0).val; omega
    | ⟨1, _⟩ => show win0_0.index t (1 : Fin 4) * 64 + 1 * (j 1).val = win0_6.index t (1 : Fin 4) * 64 + 1 * (j 1).val; omega
    | ⟨2, _⟩ => show win0_0.index t (2 : Fin 4) * 512 + 1 * (j 2).val = win0_6.index t (2 : Fin 4) * 512 + 1 * (j 2).val; omega
    | ⟨3, _⟩ => show win0_0.index t (3 : Fin 4) * 16 + 1 * (j 3).val = win0_6.index t (3 : Fin 4) * 16 + 1 * (j 3).val; omega
  have e1 : ((cfg0.win 1).blk t).view.emb (ix6_0 ((cfg0.win 6).xinj (grid0.coords t) j)) = ((cfg0.win 6).blk t).view.emb j := by
    funext a; apply Fin.ext
    match a with
    | ⟨0, _⟩ => show win0_1.index t (0 : Fin 4) * 1 + 1 * 0 = win0_6.index t (0 : Fin 4) * 1 + 1 * (j 0).val; omega
    | ⟨1, _⟩ => show win0_1.index t (1 : Fin 4) * 64 + 1 * (j 1).val = win0_6.index t (1 : Fin 4) * 64 + 1 * (j 1).val; omega
    | ⟨2, _⟩ => show win0_1.index t (2 : Fin 4) * 512 + 1 * (j 2).val = win0_6.index t (2 : Fin 4) * 512 + 1 * (j 2).val; omega
    | ⟨3, _⟩ => show win0_1.index t (3 : Fin 4) * 16 + 1 * (j 3).val = win0_6.index t (3 : Fin 4) * 16 + 1 * (j 3).val; omega
  have e2 : ((cfg0.win 2).blk t).view.emb (ix6_0 ((cfg0.win 6).xinj (grid0.coords t) j)) = ((cfg0.win 6).blk t).view.emb j := by
    funext a; apply Fin.ext
    match a with
    | ⟨0, _⟩ => show win0_2.index t (0 : Fin 4) * 1 + 1 * 0 = win0_6.index t (0 : Fin 4) * 1 + 1 * (j 0).val; omega
    | ⟨1, _⟩ => show win0_2.index t (1 : Fin 4) * 64 + 1 * (j 1).val = win0_6.index t (1 : Fin 4) * 64 + 1 * (j 1).val; omega
    | ⟨2, _⟩ => show win0_2.index t (2 : Fin 4) * 512 + 1 * (j 2).val = win0_6.index t (2 : Fin 4) * 512 + 1 * (j 2).val; omega
    | ⟨3, _⟩ => show win0_2.index t (3 : Fin 4) * 16 + 1 * (j 3).val = win0_6.index t (3 : Fin 4) * 16 + 1 * (j 3).val; omega
  have e3 : ((cfg0.win 3).blk t).view.emb (ix6_0 ((cfg0.win 6).xinj (grid0.coords t) j)) = ((cfg0.win 6).blk t).view.emb j := by
    funext a; apply Fin.ext
    match a with
    | ⟨0, _⟩ => show win0_3.index t (0 : Fin 4) * 1 + 1 * 0 = win0_6.index t (0 : Fin 4) * 1 + 1 * (j 0).val; omega
    | ⟨1, _⟩ => show win0_3.index t (1 : Fin 4) * 64 + 1 * (j 1).val = win0_6.index t (1 : Fin 4) * 64 + 1 * (j 1).val; omega
    | ⟨2, _⟩ => show win0_3.index t (2 : Fin 4) * 512 + 1 * (j 2).val = win0_6.index t (2 : Fin 4) * 512 + 1 * (j 2).val; omega
    | ⟨3, _⟩ => show win0_3.index t (3 : Fin 4) * 16 + 1 * (j 3).val = win0_6.index t (3 : Fin 4) * 16 + 1 * (j 3).val; omega
  have e4 : ((cfg0.win 4).blk t).view.emb (ix6_1 ((cfg0.win 6).xinj (grid0.coords t) j)) = Cert.Blend.pixel (((cfg0.win 6).blk t).view.emb j) := by
    funext a; apply Fin.ext
    match a with
    | ⟨0, _⟩ => show win0_4.index t (0 : Fin 4) * 1 + 1 * 0 = win0_6.index t (0 : Fin 4) * 1 + 1 * (j 0).val; omega
    | ⟨1, _⟩ => show win0_4.index t (1 : Fin 4) * 64 + 1 * (j 1).val = win0_6.index t (1 : Fin 4) * 64 + 1 * (j 1).val; omega
    | ⟨2, _⟩ => show win0_4.index t (2 : Fin 4) * 512 + 1 * (j 2).val = win0_6.index t (2 : Fin 4) * 512 + 1 * (j 2).val; omega
    | ⟨3, _⟩ => show win0_4.index t (3 : Fin 4) * 1 + 1 * 0 = 0; omega
  have e5 : ((cfg0.win 5).blk t).view.emb (ix6_1 ((cfg0.win 6).xinj (grid0.coords t) j)) = Cert.Blend.pixel (((cfg0.win 6).blk t).view.emb j) := by
    funext a; apply Fin.ext
    match a with
    | ⟨0, _⟩ => show win0_5.index t (0 : Fin 4) * 1 + 1 * 0 = win0_6.index t (0 : Fin 4) * 1 + 1 * (j 0).val; omega
    | ⟨1, _⟩ => show win0_5.index t (1 : Fin 4) * 64 + 1 * (j 1).val = win0_6.index t (1 : Fin 4) * 64 + 1 * (j 1).val; omega
    | ⟨2, _⟩ => show win0_5.index t (2 : Fin 4) * 512 + 1 * (j 2).val = win0_6.index t (2 : Fin 4) * 512 + 1 * (j 2).val; omega
    | ⟨3, _⟩ => show win0_5.index t (3 : Fin 4) * 1 + 1 * 0 = 0; omega
  show FloatOps.addf (FloatOps.addf (X0 (((cfg0.win 0).blk t).view.emb (ix6_0 ((cfg0.win 6).xinj (grid0.coords t) j)))) (FloatOps.mulf (X4 (((cfg0.win 4).blk t).view.emb (ix6_1 ((cfg0.win 6).xinj (grid0.coords t) j)))) (FloatOps.subf (X1 (((cfg0.win 1).blk t).view.emb (ix6_0 ((cfg0.win 6).xinj (grid0.coords t) j)))) (X0 (((cfg0.win 0).blk t).view.emb (ix6_0 ((cfg0.win 6).xinj (grid0.coords t) j))))))) (FloatOps.mulf (X5 (((cfg0.win 5).blk t).view.emb (ix6_1 ((cfg0.win 6).xinj (grid0.coords t) j)))) (FloatOps.subf (FloatOps.addf (X2 (((cfg0.win 2).blk t).view.emb (ix6_0 ((cfg0.win 6).xinj (grid0.coords t) j)))) (FloatOps.mulf (X4 (((cfg0.win 4).blk t).view.emb (ix6_1 ((cfg0.win 6).xinj (grid0.coords t) j)))) (FloatOps.subf (X3 (((cfg0.win 3).blk t).view.emb (ix6_0 ((cfg0.win 6).xinj (grid0.coords t) j)))) (X2 (((cfg0.win 2).blk t).view.emb (ix6_0 ((cfg0.win 6).xinj (grid0.coords t) j))))))) (FloatOps.addf (X0 (((cfg0.win 0).blk t).view.emb (ix6_0 ((cfg0.win 6).xinj (grid0.coords t) j)))) (FloatOps.mulf (X4 (((cfg0.win 4).blk t).view.emb (ix6_1 ((cfg0.win 6).xinj (grid0.coords t) j)))) (FloatOps.subf (X1 (((cfg0.win 1).blk t).view.emb (ix6_0 ((cfg0.win 6).xinj (grid0.coords t) j)))) (X0 (((cfg0.win 0).blk t).view.emb (ix6_0 ((cfg0.win 6).xinj (grid0.coords t) j))))))))) = _
  rw [e0, e1, e2, e3, e4, e5]

/-- WHAT A POINT WRITES BACK is its block of the blend of the six arrays the call finds: each window's block is, by
    definition, its array read through the block's rectangle. -/
theorem flushed_eq (c : Dev nD) (t : Fin cfg0.N) :
    (dats m 0 c).flushed 6 t = ((cfg0.win 6).blk t).view.read (Elt F) (blended m c) := by
  rw [flushed6]
  unfold out0_6
  simp only [View.ld_unit_zero (S := S1x64x512x16) hz, View.ld_unit_zero (S := S1x64x512x1) hz]
  exact block_blend t (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5))

/-- An entry of the result array is in a point's block iff each coordinate is in the block's range on its axis. -/
theorem mem_blk (t : Fin cfg0.N) (i : S8x512x512x16.Idx) :
    i ∈ ((cfg0.win 6).blk t).view.set ↔ ∀ a : Fin 4, win0_6.index t a * S1x64x512x16.size a ≤ (i a).val ∧ (i a).val < win0_6.index t a * S1x64x512x16.size a + S1x64x512x16.size a := by
  show i ∈ ((View.whole main_v60).slice (win0_6.rect t)).set ↔ _
  rw [View.set_slice_whole, Rect.mem_set_unit]
  exact Iff.rfl

/-- The blocks tile the result array: the entry (b, r, ·, ·) is in the block of the point with index (b, r / 64, 0, 0). -/
theorem cover (i : S8x512x512x16.Idx) : ∃ t : Fin cfg0.N, (cfg0.win 6).flush t = true ∧ i ∈ ((cfg0.win 6).blk t).view.set := by
  have hi0 : (i 0).val < 8 := (i 0).isLt
  have hi1 : (i 1).val < 512 := (i 1).isLt
  have hi2 : (i 2).val < 512 := (i 2).isLt
  have hi3 : (i 3).val < 16 := (i 3).isLt
  obtain ⟨t, ht⟩ := idx_onto ⟨(i 0).val, hi0⟩ ⟨(i 1).val / 64, by omega⟩
  have q0 : win0_6.index t (0 : Fin 4) = (i 0).val := congrFun ht 0
  have q1 : win0_6.index t (1 : Fin 4) = (i 1).val / 64 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 64 ≤ (i 1).val ∧ (i 1).val < win0_6.index t (1 : Fin 4) * 64 + 64; omega
  | ⟨2, _⟩ => show win0_6.index t (2 : Fin 4) * 512 ≤ (i 2).val ∧ (i 2).val < win0_6.index t (2 : Fin 4) * 512 + 512; omega
  | ⟨3, _⟩ => show win0_6.index t (3 : Fin 4) * 16 ≤ (i 3).val ∧ (i 3).val < win0_6.index t (3 : Fin 4) * 16 + 16; omega

/-- THE RESULT ARRAY after the call is the blend. -/
theorem final (c : Dev nD) : (dats m 0 c).arrAt 6 cfg0.N = blended m c :=
  (dats m 0 c).arrAt_eq_of_cover 6 (blended m c) (fun t _ => flushed_eq m c t) cover

/-- The kernel program's run, read: the result array at the blend of the six arrays the call finds, the arguments
    unchanged. -/
theorem run : θ_run defs (onTc (τ := τ) (main (F := F))) ⟨m, fun _ => 0, ρ⟩ fun r => ∀ c : Dev nD,
      r.2.mem ((c : Thread nD τ).loc main_v60) = blended m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.KernelIdeal.Warp

end
-- ==== Proof.RefChunks.lean ====
/-
  The reference's operations, cut into stretches.

  The kernel's program runs the same index and weight computation and the same four gathers as the reference before
  its call, and its host operations there come in seventeen stretches: the lines of @main between two calls of an
  outlined function, and each outlined function's body. Here the reference's operation list is cut at the same
  places, `r0 … r16`, followed by `blendOps`, the twelve operations that blend the four gathered images, which the
  kernel does in its call instead. The list is the appended stretches (`ops_eq`), so what a buffer holds after the
  run is read stretch by stretch.
-/
import proofs.«147620_j35158602285814_1_alg».proof.Proof.RefRun

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- Stretch 0: the coordinate grid minus the flow, its two components as [8,512,512] arrays, the floor of the row component, and the clip's two bounds. -/
abbrev r0 : List (HloOp τ sig (Elt F)) :=
  [ nullary main_v0 (iotaInDim S512 32 0),
    nullary main_v1 (iotaInDim S512 32 0),
    unary main_v0 main_v2 (broadcastInDim S512x512 ![0] bcast_S512_S512x512_0 : (⟨S512, .i32⟩ : BufTy).Contents (Elt F) → (⟨S512x512, .i32⟩ : BufTy).Contents (Elt F)),
    unary main_v1 main_v3 (broadcastInDim S512x512 ![1] bcast_S512_S512x512_1 : (⟨S512, .i32⟩ : BufTy).Contents (Elt F) → (⟨S512x512, .i32⟩ : BufTy).Contents (Elt F)),
    unary main_v2 main_v4 (broadcastInDim S512x512x1 ![0, 1] bcast_S512x512_S512x512x1_0_1 : (⟨S512x512, .i32⟩ : BufTy).Contents (Elt F) → (⟨S512x512x1, .i32⟩ : BufTy).Contents (Elt F)),
    unary main_v3 main_v5 (broadcastInDim S512x512x1 ![0, 1] bcast_S512x512_S512x512x1_0_1 : (⟨S512x512, .i32⟩ : BufTy).Contents (Elt F) → (⟨S512x512x1, .i32⟩ : BufTy).Contents (Elt F)),
    binary main_v4 main_v5 main_v6 ((fun a b => concatenate S512x512x2 2 [⟨S512x512x1, a⟩, ⟨S512x512x1, b⟩] concatenates_S512x512x1_S512x512x1_S512x512x2_d2) : (⟨S512x512x1, .i32⟩ : BufTy).Contents (Elt F) → (⟨S512x512x1, .i32⟩ : BufTy).Contents (Elt F) → (⟨S512x512x2, .i32⟩ : BufTy).Contents (Elt F)),
    unary main_v6 main_v7 (sitofp .f32 : (⟨S512x512x2, .i32⟩ : BufTy).Contents (Elt F) → (⟨S512x512x2, .f32⟩ : BufTy).Contents (Elt F)),
    unary main_v7 main_v8 (broadcastInDim S1x512x512x2 ![1, 2, 3] bcast_S512x512x2_S1x512x512x2_1_2_3 : (⟨S512x512x2, .f32⟩ : BufTy).Contents (Elt F) → (⟨S1x512x512x2, .f32⟩ : BufTy).Contents (Elt F)),
    unary main_v8 main_v9 (broadcastInDim S8x512x512x2 ![0, 1, 2, 3] bcast_S1x512x512x2_S8x512x512x2_0_1_2_3 : (⟨S1x512x512x2, .f32⟩ : BufTy).Contents (Elt F) → (⟨S8x512x512x2, .f32⟩ : BufTy).Contents (Elt F)),
    binary main_v9 main_arg1 main_v10 (subf : (⟨S8x512x512x2, .f32⟩ : BufTy).Contents (Elt F) → (⟨S8x512x512x2, .f32⟩ : BufTy).Contents (Elt F) → (⟨S8x512x512x2, .f32⟩ : BufTy).Contents (Elt F)),
    unary main_v10 main_v11 ((extractStridedSlice S8x512x512x1 ![0, 0, 0, 0] · slices_S8x512x512x2_S8x512x512x1_0_0_0_0) : (⟨S8x512x512x2, .f32⟩ : BufTy).Contents (Elt F) → (⟨S8x512x512x1, .f32⟩ : BufTy).Contents (Elt F)),
    reshape main_v11 main_v12 rfl shapeCasts_S8x512x512x1_S8x512x512,
    unary main_v10 main_v13 ((extractStridedSlice S8x512x512x1 ![0, 0, 0, 1] · slices_S8x512x512x2_S8x512x512x1_0_0_0_1) : (⟨S8x512x512x2, .f32⟩ : BufTy).Contents (Elt F) → (⟨S8x512x512x1, .f32⟩ : BufTy).Contents (Elt F)),
    reshape main_v13 main_v14 rfl shapeCasts_S8x512x512x1_S8x512x512,
    unary main_v12 main_v15 (Host.floor : (⟨S8x512x512, .f32⟩ : BufTy).Contents (Elt F) → (⟨S8x512x512, .f32⟩ : BufTy).Contents (Elt F)),
    nullary main_cst (constant S_ .f32 0x00000000#32),
    nullary main_c (constantI S_ 32 510#32) ]

/-- Stretch 1: the row floor clipped to [0, 510] (the first `clip`). -/
abbrev r1 : List (HloOp τ sig (Elt F)) :=
  [ TRef.unary (TRef.of (T := ⟨S_, .f32⟩) main_cst) (TRef.of (T := ⟨S_, .f32⟩) main_call0_v0) id,
    TRef.unary (TRef.of (T := ⟨S_, .f32⟩) main_call0_v0) (TRef.of (T := ⟨S8x512x512, .f32⟩) main_call0_v1) (broadcastInDim S8x512x512 ![] bcast_S_S8x512x512),
    TRef.binary (TRef.of (T := ⟨S8x512x512, .f32⟩) main_call0_v1) (TRef.of (T := ⟨S8x512x512, .f32⟩) main_v15) (TRef.of (T := ⟨S8x512x512, .f32⟩) main_call0_v2) maximumf,
    TRef.unary (TRef.of (T := ⟨S_, .i32⟩) main_c) (TRef.of (T := ⟨S_, .f32⟩) main_call0_v3) (sitofp .f32),
    TRef.unary (TRef.of (T := ⟨S_, .f32⟩) main_call0_v3) (TRef.of (T := ⟨S8x512x512, .f32⟩) main_call0_v4) (broadcastInDim S8x512x512 ![] bcast_S_S8x512x512),
    TRef.binary (TRef.of (T := ⟨S8x512x512, .f32⟩) main_call0_v4) (TRef.of (T := ⟨S8x512x512, .f32⟩) main_call0_v2) (TRef.of (T := ⟨S8x512x512, .f32⟩) main_v16) minimumf ]

/-- Stretch 2: the floor of the column component and the second clip's bounds. -/
abbrev r2 : List (HloOp τ sig (Elt F)) :=
  [ unary main_v14 main_v17 (Host.floor : (⟨S8x512x512, .f32⟩ : BufTy).Contents (Elt F) → (⟨S8x512x512, .f32⟩ : BufTy).Contents (Elt F)),
    nullary main_cst_0 (constant S_ .f32 0x00000000#32),
    nullary main_c_1 (constantI S_ 32 510#32) ]

/-- Stretch 3: the column floor clipped to [0, 510] (the second `clip`). -/
abbrev r3 : List (HloOp τ sig (Elt F)) :=
  [ TRef.unary (TRef.of (T := ⟨S_, .f32⟩) main_cst_0) (TRef.of (T := ⟨S_, .f32⟩) main_call1_v0) id,
    TRef.unary (TRef.of (T := ⟨S_, .f32⟩) main_call1_v0) (TRef.of (T := ⟨S8x512x512, .f32⟩) main_call1_v1) (broadcastInDim S8x512x512 ![] bcast_S_S8x512x512),
    TRef.binary (TRef.of (T := ⟨S8x512x512, .f32⟩) main_call1_v1) (TRef.of (T := ⟨S8x512x512, .f32⟩) main_v17) (TRef.of (T := ⟨S8x512x512, .f32⟩) main_call1_v2) maximumf,
    TRef.unary (TRef.of (T := ⟨S_, .i32⟩) main_c_1) (TRef.of (T := ⟨S_, .f32⟩) main_call1_v3) (sitofp .f32),
    TRef.unary (TRef.of (T := ⟨S_, .f32⟩) main_call1_v3) (TRef.of (T := ⟨S8x512x512, .f32⟩) main_call1_v4) (broadcastInDim S8x512x512 ![] bcast_S_S8x512x512),
    TRef.binary (TRef.of (T := ⟨S8x512x512, .f32⟩) main_call1_v4) (TRef.of (T := ⟨S8x512x512, .f32⟩) main_call1_v2) (TRef.of (T := ⟨S8x512x512, .f32⟩) main_v18) minimumf ]

/-- Stretch 4: the row fraction before clipping, and the bounds 0 and 1. -/
abbrev r4 : List (HloOp τ sig (Elt F)) :=
  [ binary main_v12 main_v16 main_v19 (subf : (⟨S8x512x512, .f32⟩ : BufTy).Contents (Elt F) → (⟨S8x512x512, .f32⟩ : BufTy).Contents (Elt F) → (⟨S8x512x512, .f32⟩ : BufTy).Contents (Elt F)),
    nullary main_cst_2 (constant S_ .f32 0x00000000#32),
    nullary main_cst_3 (constant S_ .f32 0x3F800000#32) ]

/-- Stretch 5: the row fraction clipped to [0, 1]. -/
abbrev r5 : List (HloOp τ sig (Elt F)) :=
  [ TRef.unary (TRef.of (T := ⟨S_, .f32⟩) main_cst_2) (TRef.of (T := ⟨S_, .f32⟩) main_call2_v0) id,
    TRef.unary (TRef.of (T := ⟨S_, .f32⟩) main_call2_v0) (TRef.of (T := ⟨S8x512x512, .f32⟩) main_call2_v1) (broadcastInDim S8x512x512 ![] bcast_S_S8x512x512),
    TRef.binary (TRef.of (T := ⟨S8x512x512, .f32⟩) main_call2_v1) (TRef.of (T := ⟨S8x512x512, .f32⟩) main_v19) (TRef.of (T := ⟨S8x512x512, .f32⟩) main_call2_v2) maximumf,
    TRef.unary (TRef.of (T := ⟨S_, .f32⟩) main_cst_3) (TRef.of (T := ⟨S_, .f32⟩) main_call2_v3) id,
    TRef.unary (TRef.of (T := ⟨S_, .f32⟩) main_call2_v3) (TRef.of (T := ⟨S8x512x512, .f32⟩) main_call2_v4) (broadcastInDim S8x512x512 ![] bcast_S_S8x512x512),
    TRef.binary (TRef.of (T := ⟨S8x512x512, .f32⟩) main_call2_v4) (TRef.of (T := ⟨S8x512x512, .f32⟩) main_call2_v2) (TRef.of (T := ⟨S8x512x512, .f32⟩) main_v20) minimumf ]

/-- Stretch 6: the vertical weight map; the column fraction before clipping; the bounds 0 and 1. -/
abbrev r6 : List (HloOp τ sig (Elt F)) :=
  [ unary main_v20 main_v21 (broadcastInDim S8x512x512x1 ![0, 1, 2] bcast_S8x512x512_S8x512x512x1_0_1_2 : (⟨S8x512x512, .f32⟩ : BufTy).Contents (Elt F) → (⟨S8x512x512x1, .f32⟩ : BufTy).Contents (Elt F)),
    binary main_v14 main_v18 main_v22 (subf : (⟨S8x512x512, .f32⟩ : BufTy).Contents (Elt F) → (⟨S8x512x512, .f32⟩ : BufTy).Contents (Elt F) → (⟨S8x512x512, .f32⟩ : BufTy).Contents (Elt F)),
    nullary main_cst_4 (constant S_ .f32 0x00000000#32),
    nullary main_cst_5 (constant S_ .f32 0x3F800000#32) ]

/-- Stretch 7: the column fraction clipped to [0, 1]. -/
abbrev r7 : List (HloOp τ sig (Elt F)) :=
  [ TRef.unary (TRef.of (T := ⟨S_, .f32⟩) main_cst_4) (TRef.of (T := ⟨S_, .f32⟩) main_call3_v0) id,
    TRef.unary (TRef.of (T := ⟨S_, .f32⟩) main_call3_v0) (TRef.of (T := ⟨S8x512x512, .f32⟩) main_call3_v1) (broadcastInDim S8x512x512 ![] bcast_S_S8x512x512),
    TRef.binary (TRef.of (T := ⟨S8x512x512, .f32⟩) main_call3_v1) (TRef.of (T := ⟨S8x512x512, .f32⟩) main_v22) (TRef.of (T := ⟨S8x512x512, .f32⟩) main_call3_v2) maximumf,
    TRef.unary (TRef.of (T := ⟨S_, .f32⟩) main_cst_5) (TRef.of (T := ⟨S_, .f32⟩) main_call3_v3) id,
    TRef.unary (TRef.of (T := ⟨S_, .f32⟩) main_call3_v3) (TRef.of (T := ⟨S8x512x512, .f32⟩) main_call3_v4) (broadcastInDim S8x512x512 ![] bcast_S_S8x512x512),
    TRef.binary (TRef.of (T := ⟨S8x512x512, .f32⟩) main_call3_v4) (TRef.of (T := ⟨S8x512x512, .f32⟩) main_call3_v2) (TRef.of (T := ⟨S8x512x512, .f32⟩) main_v23) minimumf ]

/-- Stretch 8: the horizontal weight map; the clipped floors as integers; the image as [8, 262144, 16]; the top-left linear indices. -/
abbrev r8 : List (HloOp τ sig (Elt F)) :=
  [ unary main_v23 main_v24 (broadcastInDim S8x512x512x1 ![0, 1, 2] bcast_S8x512x512_S8x512x512x1_0_1_2 : (⟨S8x512x512, .f32⟩ : BufTy).Contents (Elt F) → (⟨S8x512x512x1, .f32⟩ : BufTy).Contents (Elt F)),
    unary main_v16 main_v25 (fptosi 32 : (⟨S8x512x512, .f32⟩ : BufTy).Contents (Elt F) → (⟨S8x512x512, .i32⟩ : BufTy).Contents (Elt F)),
    unary main_v18 main_v26 (fptosi 32 : (⟨S8x512x512, .f32⟩ : BufTy).Contents (Elt F) → (⟨S8x512x512, .i32⟩ : BufTy).Contents (Elt F)),
    reshape main_arg0 main_v27 rfl shapeCasts_S8x512x512x16_S8x262144x16,
    nullary main_c_6 (constantI S_ 32 512#32),
    unary main_c_6 main_v28 (broadcastInDim S8x512x512 ![] bcast_S_S8x512x512 : (⟨S_, .i32⟩ : BufTy).Contents (Elt F) → (⟨S8x512x512, .i32⟩ : BufTy).Contents (Elt F)),
    binary main_v25 main_v28 main_v29 (muli : (⟨S8x512x512, .i32⟩ : BufTy).Contents (Elt F) → (⟨S8x512x512, .i32⟩ : BufTy).Contents (Elt F) → (⟨S8x512x512, .i32⟩ : BufTy).Contents (Elt F)),
    binary main_v29 main_v26 main_v30 (addi : (⟨S8x512x512, .i32⟩ : BufTy).Contents (Elt F) → (⟨S8x512x512, .i32⟩ : BufTy).Contents (Elt F) → (⟨S8x512x512, .i32⟩ : BufTy).Contents (Elt F)),
    reshape main_v30 main_v31 rfl shapeCasts_S8x512x512_S8x262144x1 ]

/-- Stretch 9: the top-left gather (`take_along_axis`: index wrap, range test, gather, fill). -/
abbrev r9 : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S8x262144x1, .i32⟩) main_call4_v0) (broadcastInDim S8x262144x1 ![] bcast_S_S8x262144x1),
    TRef.binary (TRef.of (T := ⟨S8x262144x1, .i32⟩) main_v31) (TRef.of (T := ⟨S8x262144x1, .i32⟩) main_call4_v0) (TRef.of (T := ⟨S8x262144x1, .i1⟩) main_call4_v1) (cmpi .slt),
    TRef.nullary (TRef.of (T := ⟨S_, .i32⟩) main_call4_c_0) (constantI S_ 32 262144#32),
    TRef.unary (TRef.of (T := ⟨S_, .i32⟩) main_call4_c_0) (TRef.of (T := ⟨S8x262144x1, .i32⟩) main_call4_v2) (broadcastInDim S8x262144x1 ![] bcast_S_S8x262144x1),
    TRef.binary (TRef.of (T := ⟨S8x262144x1, .i32⟩) main_v31) (TRef.of (T := ⟨S8x262144x1, .i32⟩) main_call4_v2) (TRef.of (T := ⟨S8x262144x1, .i32⟩) main_call4_v3) addi,
    TRef.ternary (TRef.of (T := ⟨S8x262144x1, .i1⟩) main_call4_v1) (TRef.of (T := ⟨S8x262144x1, .i32⟩) main_call4_v3) (TRef.of (T := ⟨S8x262144x1, .i32⟩) main_v31) (TRef.of (T := ⟨S8x262144x1, .i32⟩) main_call4_v4) select,
    TRef.nullary (TRef.of (T := ⟨S1, .i32⟩) main_call4_c_1) (constantI S1 32 262143#32),
    TRef.nullary (TRef.of (T := ⟨S_, .i32⟩) main_call4_c_2) (constantI S_ 32 0#32),
    TRef.unary (TRef.of (T := ⟨S_, .i32⟩) main_call4_c_2) (TRef.of (T := ⟨S8x262144x1, .i32⟩) main_call4_v5) (broadcastInDim S8x262144x1 ![] bcast_S_S8x262144x1),
    TRef.binary (TRef.of (T := ⟨S8x262144x1, .i32⟩) main_call4_v4) (TRef.of (T := ⟨S8x262144x1, .i32⟩) main_call4_v5) (TRef.of (T := ⟨S8x262144x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S8x262144x1, .i32⟩) main_call4_v8) (broadcastInDim S8x262144x1 ![0, 1, 2] bcast_S1x1x1_S8x262144x1_0_1_2),
    TRef.binary (TRef.of (T := ⟨S8x262144x1, .i32⟩) main_call4_v4) (TRef.of (T := ⟨S8x262144x1, .i32⟩) main_call4_v8) (TRef.of (T := ⟨S8x262144x1, .i1⟩) main_call4_v9) (cmpi .sle),
    TRef.binary (TRef.of (T := ⟨S8x262144x1, .i1⟩) main_call4_v6) (TRef.of (T := ⟨S8x262144x1, .i1⟩) main_call4_v9) (TRef.of (T := ⟨S8x262144x1, .i1⟩) main_call4_v10) andi,
    TRef.nullary (TRef.of (T := ⟨S_, .i1⟩) main_call4_c_3) (constantI S_ 1 1#1),
    TRef.binary (TRef.of (T := ⟨S8x262144x1, .i1⟩) main_call4_v10) (TRef.of (T := ⟨S_, .i1⟩) main_call4_c_3) (TRef.of (T := ⟨S8x262144, .i1⟩) main_call4_v11) (fun x v => Host.reduce IntOp.andi x v reducesTo_S8x262144x1_S8x262144_d2 h_S_),
    TRef.binary (TRef.of (T := ⟨S8x262144x16, .f32⟩) main_v27) (TRef.of (T := ⟨S8x262144x1, .i32⟩) main_call4_v4) (TRef.of (T := ⟨S8x262144x16, .f32⟩) main_call4_v12) (fun x i => Host.gather gather_S8x262144x16_S8x262144x1_S8x262144x16_2_1_0_0_1_2_1116 x i),
    TRef.unary (TRef.of (T := ⟨S8x262144, .i1⟩) main_call4_v11) (TRef.of (T := ⟨S8x262144x16, .i1⟩) main_call4_v13) (broadcastInDim S8x262144x16 ![0, 1] bcast_S8x262144_S8x262144x16_0_1),
    TRef.nullary (TRef.of (T := ⟨S_, .f32⟩) main_call4_cst) (constant S_ .f32 0x7FC00000#32),
    TRef.unary (TRef.of (T := ⟨S_, .f32⟩) main_call4_cst) (TRef.of (T := ⟨S8x262144x16, .f32⟩) main_call4_v14) (broadcastInDim S8x262144x16 ![] bcast_S_S8x262144x16),
    TRef.ternary (TRef.of (T := ⟨S8x262144x16, .i1⟩) main_call4_v13) (TRef.of (T := ⟨S8x262144x16, .f32⟩) main_call4_v12) (TRef.of (T := ⟨S8x262144x16, .f32⟩) main_call4_v14) (TRef.of (T := ⟨S8x262144x16, .f32⟩) main_v32) select ]

/-- Stretch 10: the top-left image; the top-right linear indices. -/
abbrev r10 : List (HloOp τ sig (Elt F)) :=
  [ reshape main_v32 main_v33 rfl shapeCasts_S8x262144x16_S8x512x512x16,
    nullary main_c_7 (constantI S_ 32 1#32),
    unary main_c_7 main_v34 (broadcastInDim S8x512x512 ![] bcast_S_S8x512x512 : (⟨S_, .i32⟩ : BufTy).Contents (Elt F) → (⟨S8x512x512, .i32⟩ : BufTy).Contents (Elt F)),
    binary main_v26 main_v34 main_v35 (addi : (⟨S8x512x512, .i32⟩ : BufTy).Contents (Elt F) → (⟨S8x512x512, .i32⟩ : BufTy).Contents (Elt F) → (⟨S8x512x512, .i32⟩ : BufTy).Contents (Elt F)),
    nullary main_c_8 (constantI S_ 32 512#32),
    unary main_c_8 main_v36 (broadcastInDim S8x512x512 ![] bcast_S_S8x512x512 : (⟨S_, .i32⟩ : BufTy).Contents (Elt F) → (⟨S8x512x512, .i32⟩ : BufTy).Contents (Elt F)),
    binary main_v25 main_v36 main_v37 (muli : (⟨S8x512x512, .i32⟩ : BufTy).Contents (Elt F) → (⟨S8x512x512, .i32⟩ : BufTy).Contents (Elt F) → (⟨S8x512x512, .i32⟩ : BufTy).Contents (Elt F)),
    binary main_v37 main_v35 main_v38 (addi : (⟨S8x512x512, .i32⟩ : BufTy).Contents (Elt F) → (⟨S8x512x512, .i32⟩ : BufTy).Contents (Elt F) → (⟨S8x512x512, .i32⟩ : BufTy).Contents (Elt F)),
    reshape main_v38 main_v39 rfl shapeCasts_S8x512x512_S8x262144x1 ]

/-- Stretch 11: the top-right gather. -/
abbrev r11 : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S8x262144x1, .i32⟩) main_call5_v0) (broadcastInDim S8x262144x1 ![] bcast_S_S8x262144x1),
    TRef.binary (TRef.of (T := ⟨S8x262144x1, .i32⟩) main_v39) (TRef.of (T := ⟨S8x262144x1, .i32⟩) main_call5_v0) (TRef.of (T := ⟨S8x262144x1, .i1⟩) main_call5_v1) (cmpi .slt),
    TRef.nullary (TRef.of (T := ⟨S_, .i32⟩) main_call5_c_0) (constantI S_ 32 262144#32),
    TRef.unary (TRef.of (T := ⟨S_, .i32⟩) main_call5_c_0) (TRef.of (T := ⟨S8x262144x1, .i32⟩) main_call5_v2) (broadcastInDim S8x262144x1 ![] bcast_S_S8x262144x1),
    TRef.binary (TRef.of (T := ⟨S8x262144x1, .i32⟩) main_v39) (TRef.of (T := ⟨S8x262144x1, .i32⟩) main_call5_v2) (TRef.of (T := ⟨S8x262144x1, .i32⟩) main_call5_v3) addi,
    TRef.ternary (TRef.of (T := ⟨S8x262144x1, .i1⟩) main_call5_v1) (TRef.of (T := ⟨S8x262144x1, .i32⟩) main_call5_v3) (TRef.of (T := ⟨S8x262144x1, .i32⟩) main_v39) (TRef.of (T := ⟨S8x262144x1, .i32⟩) main_call5_v4) select,
    TRef.nullary (TRef.of (T := ⟨S1, .i32⟩) main_call5_c_1) (constantI S1 32 262143#32),
    TRef.nullary (TRef.of (T := ⟨S_, .i32⟩) main_call5_c_2) (constantI S_ 32 0#32),
    TRef.unary (TRef.of (T := ⟨S_, .i32⟩) main_call5_c_2) (TRef.of (T := ⟨S8x262144x1, .i32⟩) main_call5_v5) (broadcastInDim S8x262144x1 ![] bcast_S_S8x262144x1),
    TRef.binary (TRef.of (T := ⟨S8x262144x1, .i32⟩) main_call5_v4) (TRef.of (T := ⟨S8x262144x1, .i32⟩) main_call5_v5) (TRef.of (T := ⟨S8x262144x1, .i1⟩) main_call5_v6) (cmpi .sge),
    TRef.unary (TRef.of (T := ⟨S1, .i32⟩) main_call5_c_1) (TRef.of (T := ⟨S1x1x1, .i32⟩) main_call5_v7) (broadcastInDim S1x1x1 ![2] bcast_S1_S1x1x1_2),
    TRef.unary (TRef.of (T := ⟨S1x1x1, .i32⟩) main_call5_v7) (TRef.of (T := ⟨S8x262144x1, .i32⟩) main_call5_v8) (broadcastInDim S8x262144x1 ![0, 1, 2] bcast_S1x1x1_S8x262144x1_0_1_2),
    TRef.binary (TRef.of (T := ⟨S8x262144x1, .i32⟩) main_call5_v4) (TRef.of (T := ⟨S8x262144x1, .i32⟩) main_call5_v8) (TRef.of (T := ⟨S8x262144x1, .i1⟩) main_call5_v9) (cmpi .sle),
    TRef.binary (TRef.of (T := ⟨S8x262144x1, .i1⟩) main_call5_v6) (TRef.of (T := ⟨S8x262144x1, .i1⟩) main_call5_v9) (TRef.of (T := ⟨S8x262144x1, .i1⟩) main_call5_v10) andi,
    TRef.nullary (TRef.of (T := ⟨S_, .i1⟩) main_call5_c_3) (constantI S_ 1 1#1),
    TRef.binary (TRef.of (T := ⟨S8x262144x1, .i1⟩) main_call5_v10) (TRef.of (T := ⟨S_, .i1⟩) main_call5_c_3) (TRef.of (T := ⟨S8x262144, .i1⟩) main_call5_v11) (fun x v => Host.reduce IntOp.andi x v reducesTo_S8x262144x1_S8x262144_d2 h_S_),
    TRef.binary (TRef.of (T := ⟨S8x262144x16, .f32⟩) main_v27) (TRef.of (T := ⟨S8x262144x1, .i32⟩) main_call5_v4) (TRef.of (T := ⟨S8x262144x16, .f32⟩) main_call5_v12) (fun x i => Host.gather gather_S8x262144x16_S8x262144x1_S8x262144x16_2_1_0_0_1_2_1116 x i),
    TRef.unary (TRef.of (T := ⟨S8x262144, .i1⟩) main_call5_v11) (TRef.of (T := ⟨S8x262144x16, .i1⟩) main_call5_v13) (broadcastInDim S8x262144x16 ![0, 1] bcast_S8x262144_S8x262144x16_0_1),
    TRef.nullary (TRef.of (T := ⟨S_, .f32⟩) main_call5_cst) (constant S_ .f32 0x7FC00000#32),
    TRef.unary (TRef.of (T := ⟨S_, .f32⟩) main_call5_cst) (TRef.of (T := ⟨S8x262144x16, .f32⟩) main_call5_v14) (broadcastInDim S8x262144x16 ![] bcast_S_S8x262144x16),
    TRef.ternary (TRef.of (T := ⟨S8x262144x16, .i1⟩) main_call5_v13) (TRef.of (T := ⟨S8x262144x16, .f32⟩) main_call5_v12) (TRef.of (T := ⟨S8x262144x16, .f32⟩) main_call5_v14) (TRef.of (T := ⟨S8x262144x16, .f32⟩) main_v40) select ]

/-- Stretch 12: the top-right image; the bottom-left linear indices. -/
abbrev r12 : List (HloOp τ sig (Elt F)) :=
  [ reshape main_v40 main_v41 rfl shapeCasts_S8x262144x16_S8x512x512x16,
    nullary main_c_9 (constantI S_ 32 1#32),
    unary main_c_9 main_v42 (broadcastInDim S8x512x512 ![] bcast_S_S8x512x512 : (⟨S_, .i32⟩ : BufTy).Contents (Elt F) → (⟨S8x512x512, .i32⟩ : BufTy).Contents (Elt F)),
    binary main_v25 main_v42 main_v43 (addi : (⟨S8x512x512, .i32⟩ : BufTy).Contents (Elt F) → (⟨S8x512x512, .i32⟩ : BufTy).Contents (Elt F) → (⟨S8x512x512, .i32⟩ : BufTy).Contents (Elt F)),
    nullary main_c_10 (constantI S_ 32 512#32),
    unary main_c_10 main_v44 (broadcastInDim S8x512x512 ![] bcast_S_S8x512x512 : (⟨S_, .i32⟩ : BufTy).Contents (Elt F) → (⟨S8x512x512, .i32⟩ : BufTy).Contents (Elt F)),
    binary main_v43 main_v44 main_v45 (muli : (⟨S8x512x512, .i32⟩ : BufTy).Contents (Elt F) → (⟨S8x512x512, .i32⟩ : BufTy).Contents (Elt F) → (⟨S8x512x512, .i32⟩ : BufTy).Contents (Elt F)),
    binary main_v45 main_v26 main_v46 (addi : (⟨S8x512x512, .i32⟩ : BufTy).Contents (Elt F) → (⟨S8x512x512, .i32⟩ : BufTy).Contents (Elt F) → (⟨S8x512x512, .i32⟩ : BufTy).Contents (Elt F)),
    reshape main_v46 main_v47 rfl shapeCasts_S8x512x512_S8x262144x1 ]

/-- Stretch 13: the bottom-left gather. -/
abbrev r13 : List (HloOp τ sig (Elt F)) :=
  [ TRef.nullary (TRef.of (T := ⟨S_, .i32⟩) main_call6_c) (constantI S_ 32 0#32),
    TRef.unary (TRef.of (T := ⟨S_, .i32⟩) main_call6_c) (TRef.of (T := ⟨S8x262144x1, .i32⟩) main_call6_v0) (broadcastInDim S8x262144x1 ![] bcast_S_S8x262144x1),
    TRef.binary (TRef.of (T := ⟨S8x262144x1, .i32⟩) main_v47) (TRef.of (T := ⟨S8x262144x1, .i32⟩) main_call6_v0) (TRef.of (T := ⟨S8x262144x1, .i1⟩) main_call6_v1) (cmpi .slt),
    TRef.nullary (TRef.of (T := ⟨S_, .i32⟩) main_call6_c_0) (constantI S_ 32 262144#32),
    TRef.unary (TRef.of (T := ⟨S_, .i32⟩) main_call6_c_0) (TRef.of (T := ⟨S8x262144x1, .i32⟩) main_call6_v2) (broadcastInDim S8x262144x1 ![] bcast_S_S8x262144x1),
    TRef.binary (TRef.of (T := ⟨S8x262144x1, .i32⟩) main_v47) (TRef.of (T := ⟨S8x262144x1, .i32⟩) main_call6_v2) (TRef.of (T := ⟨S8x262144x1, .i32⟩) main_call6_v3) addi,
    TRef.ternary (TRef.of (T := ⟨S8x262144x1, .i1⟩) main_call6_v1) (TRef.of (T := ⟨S8x262144x1, .i32⟩) main_call6_v3) (TRef.of (T := ⟨S8x262144x1, .i32⟩) main_v47) (TRef.of (T := ⟨S8x262144x1, .i32⟩) main_call6_v4) select,
    TRef.nullary (TRef.of (T := ⟨S1, .i32⟩) main_call6_c_1) (constantI S1 32 262143#32),
    TRef.nullary (TRef.of (T := ⟨S_, .i32⟩) main_call6_c_2) (constantI S_ 32 0#32),
    TRef.unary (TRef.of (T := ⟨S_, .i32⟩) main_call6_c_2) (TRef.of (T := ⟨S8x262144x1, .i32⟩) main_call6_v5) (broadcastInDim S8x262144x1 ![] bcast_S_S8x262144x1),
    TRef.binary (TRef.of (T := ⟨S8x262144x1, .i32⟩) main_call6_v4) (TRef.of (T := ⟨S8x262144x1, .i32⟩) main_call6_v5) (TRef.of (T := ⟨S8x262144x1, .i1⟩) main_call6_v6) (cmpi .sge),
    TRef.unary (TRef.of (T := ⟨S1, .i32⟩) main_call6_c_1) (TRef.of (T := ⟨S1x1x1, .i32⟩) main_call6_v7) (broadcastInDim S1x1x1 ![2] bcast_S1_S1x1x1_2),
    TRef.unary (TRef.of (T := ⟨S1x1x1, .i32⟩) main_call6_v7) (TRef.of (T := ⟨S8x262144x1, .i32⟩) main_call6_v8) (broadcastInDim S8x262144x1 ![0, 1, 2] bcast_S1x1x1_S8x262144x1_0_1_2),
    TRef.binary (TRef.of (T := ⟨S8x262144x1, .i32⟩) main_call6_v4) (TRef.of (T := ⟨S8x262144x1, .i32⟩) main_call6_v8) (TRef.of (T := ⟨S8x262144x1, .i1⟩) main_call6_v9) (cmpi .sle),
    TRef.binary (TRef.of (T := ⟨S8x262144x1, .i1⟩) main_call6_v6) (TRef.of (T := ⟨S8x262144x1, .i1⟩) main_call6_v9) (TRef.of (T := ⟨S8x262144x1, .i1⟩) main_call6_v10) andi,
    TRef.nullary (TRef.of (T := ⟨S_, .i1⟩) main_call6_c_3) (constantI S_ 1 1#1),
    TRef.binary (TRef.of (T := ⟨S8x262144x1, .i1⟩) main_call6_v10) (TRef.of (T := ⟨S_, .i1⟩) main_call6_c_3) (TRef.of (T := ⟨S8x262144, .i1⟩) main_call6_v11) (fun x v => Host.reduce IntOp.andi x v reducesTo_S8x262144x1_S8x262144_d2 h_S_),
    TRef.binary (TRef.of (T := ⟨S8x262144x16, .f32⟩) main_v27) (TRef.of (T := ⟨S8x262144x1, .i32⟩) main_call6_v4) (TRef.of (T := ⟨S8x262144x16, .f32⟩) main_call6_v12) (fun x i => Host.gather gather_S8x262144x16_S8x262144x1_S8x262144x16_2_1_0_0_1_2_1116 x i),
    TRef.unary (TRef.of (T := ⟨S8x262144, .i1⟩) main_call6_v11) (TRef.of (T := ⟨S8x262144x16, .i1⟩) main_call6_v13) (broadcastInDim S8x262144x16 ![0, 1] bcast_S8x262144_S8x262144x16_0_1),
    TRef.nullary (TRef.of (T := ⟨S_, .f32⟩) main_call6_cst) (constant S_ .f32 0x7FC00000#32),
    TRef.unary (TRef.of (T := ⟨S_, .f32⟩) main_call6_cst) (TRef.of (T := ⟨S8x262144x16, .f32⟩) main_call6_v14) (broadcastInDim S8x262144x16 ![] bcast_S_S8x262144x16),
    TRef.ternary (TRef.of (T := ⟨S8x262144x16, .i1⟩) main_call6_v13) (TRef.of (T := ⟨S8x262144x16, .f32⟩) main_call6_v12) (TRef.of (T := ⟨S8x262144x16, .f32⟩) main_call6_v14) (TRef.of (T := ⟨S8x262144x16, .f32⟩) main_v48) select ]

/-- Stretch 14: the bottom-left image; the bottom-right linear indices. -/
abbrev r14 : List (HloOp τ sig (Elt F)) :=
  [ reshape main_v48 main_v49 rfl shapeCasts_S8x262144x16_S8x512x512x16,
    nullary main_c_11 (constantI S_ 32 1#32),
    unary main_c_11 main_v50 (broadcastInDim S8x512x512 ![] bcast_S_S8x512x512 : (⟨S_, .i32⟩ : BufTy).Contents (Elt F) → (⟨S8x512x512, .i32⟩ : BufTy).Contents (Elt F)),
    binary main_v25 main_v50 main_v51 (addi : (⟨S8x512x512, .i32⟩ : BufTy).Contents (Elt F) → (⟨S8x512x512, .i32⟩ : BufTy).Contents (Elt F) → (⟨S8x512x512, .i32⟩ : BufTy).Contents (Elt F)),
    nullary main_c_12 (constantI S_ 32 1#32),
    unary main_c_12 main_v52 (broadcastInDim S8x512x512 ![] bcast_S_S8x512x512 : (⟨S_, .i32⟩ : BufTy).Contents (Elt F) → (⟨S8x512x512, .i32⟩ : BufTy).Contents (Elt F)),
    binary main_v26 main_v52 main_v53 (addi : (⟨S8x512x512, .i32⟩ : BufTy).Contents (Elt F) → (⟨S8x512x512, .i32⟩ : BufTy).Contents (Elt F) → (⟨S8x512x512, .i32⟩ : BufTy).Contents (Elt F)),
    nullary main_c_13 (constantI S_ 32 512#32),
    unary main_c_13 main_v54 (broadcastInDim S8x512x512 ![] bcast_S_S8x512x512 : (⟨S_, .i32⟩ : BufTy).Contents (Elt F) → (⟨S8x512x512, .i32⟩ : BufTy).Contents (Elt F)),
    binary main_v51 main_v54 main_v55 (muli : (⟨S8x512x512, .i32⟩ : BufTy).Contents (Elt F) → (⟨S8x512x512, .i32⟩ : BufTy).Contents (Elt F) → (⟨S8x512x512, .i32⟩ : BufTy).Contents (Elt F)),
    binary main_v55 main_v53 main_v56 (addi : (⟨S8x512x512, .i32⟩ : BufTy).Contents (Elt F) → (⟨S8x512x512, .i32⟩ : BufTy).Contents (Elt F) → (⟨S8x512x512, .i32⟩ : BufTy).Contents (Elt F)),
    reshape main_v56 main_v57 rfl shapeCasts_S8x512x512_S8x262144x1 ]

/-- Stretch 15: the bottom-right gather. -/
abbrev r15 : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S8x262144x1, .i32⟩) main_call7_v0) (broadcastInDim S8x262144x1 ![] bcast_S_S8x262144x1),
    TRef.binary (TRef.of (T := ⟨S8x262144x1, .i32⟩) main_v57) (TRef.of (T := ⟨S8x262144x1, .i32⟩) main_call7_v0) (TRef.of (T := ⟨S8x262144x1, .i1⟩) main_call7_v1) (cmpi .slt),
    TRef.nullary (TRef.of (T := ⟨S_, .i32⟩) main_call7_c_0) (constantI S_ 32 262144#32),
    TRef.unary (TRef.of (T := ⟨S_, .i32⟩) main_call7_c_0) (TRef.of (T := ⟨S8x262144x1, .i32⟩) main_call7_v2) (broadcastInDim S8x262144x1 ![] bcast_S_S8x262144x1),
    TRef.binary (TRef.of (T := ⟨S8x262144x1, .i32⟩) main_v57) (TRef.of (T := ⟨S8x262144x1, .i32⟩) main_call7_v2) (TRef.of (T := ⟨S8x262144x1, .i32⟩) main_call7_v3) addi,
    TRef.ternary (TRef.of (T := ⟨S8x262144x1, .i1⟩) main_call7_v1) (TRef.of (T := ⟨S8x262144x1, .i32⟩) main_call7_v3) (TRef.of (T := ⟨S8x262144x1, .i32⟩) main_v57) (TRef.of (T := ⟨S8x262144x1, .i32⟩) main_call7_v4) select,
    TRef.nullary (TRef.of (T := ⟨S1, .i32⟩) main_call7_c_1) (constantI S1 32 262143#32),
    TRef.nullary (TRef.of (T := ⟨S_, .i32⟩) main_call7_c_2) (constantI S_ 32 0#32),
    TRef.unary (TRef.of (T := ⟨S_, .i32⟩) main_call7_c_2) (TRef.of (T := ⟨S8x262144x1, .i32⟩) main_call7_v5) (broadcastInDim S8x262144x1 ![] bcast_S_S8x262144x1),
    TRef.binary (TRef.of (T := ⟨S8x262144x1, .i32⟩) main_call7_v4) (TRef.of (T := ⟨S8x262144x1, .i32⟩) main_call7_v5) (TRef.of (T := ⟨S8x262144x1, .i1⟩) main_call7_v6) (cmpi .sge),
    TRef.unary (TRef.of (T := ⟨S1, .i32⟩) main_call7_c_1) (TRef.of (T := ⟨S1x1x1, .i32⟩) main_call7_v7) (broadcastInDim S1x1x1 ![2] bcast_S1_S1x1x1_2),
    TRef.unary (TRef.of (T := ⟨S1x1x1, .i32⟩) main_call7_v7) (TRef.of (T := ⟨S8x262144x1, .i32⟩) main_call7_v8) (broadcastInDim S8x262144x1 ![0, 1, 2] bcast_S1x1x1_S8x262144x1_0_1_2),
    TRef.binary (TRef.of (T := ⟨S8x262144x1, .i32⟩) main_call7_v4) (TRef.of (T := ⟨S8x262144x1, .i32⟩) main_call7_v8) (TRef.of (T := ⟨S8x262144x1, .i1⟩) main_call7_v9) (cmpi .sle),
    TRef.binary (TRef.of (T := ⟨S8x262144x1, .i1⟩) main_call7_v6) (TRef.of (T := ⟨S8x262144x1, .i1⟩) main_call7_v9) (TRef.of (T := ⟨S8x262144x1, .i1⟩) main_call7_v10) andi,
    TRef.nullary (TRef.of (T := ⟨S_, .i1⟩) main_call7_c_3) (constantI S_ 1 1#1),
    TRef.binary (TRef.of (T := ⟨S8x262144x1, .i1⟩) main_call7_v10) (TRef.of (T := ⟨S_, .i1⟩) main_call7_c_3) (TRef.of (T := ⟨S8x262144, .i1⟩) main_call7_v11) (fun x v => Host.reduce IntOp.andi x v reducesTo_S8x262144x1_S8x262144_d2 h_S_),
    TRef.binary (TRef.of (T := ⟨S8x262144x16, .f32⟩) main_v27) (TRef.of (T := ⟨S8x262144x1, .i32⟩) main_call7_v4) (TRef.of (T := ⟨S8x262144x16, .f32⟩) main_call7_v12) (fun x i => Host.gather gather_S8x262144x16_S8x262144x1_S8x262144x16_2_1_0_0_1_2_1116 x i),
    TRef.unary (TRef.of (T := ⟨S8x262144, .i1⟩) main_call7_v11) (TRef.of (T := ⟨S8x262144x16, .i1⟩) main_call7_v13) (broadcastInDim S8x262144x16 ![0, 1] bcast_S8x262144_S8x262144x16_0_1),
    TRef.nullary (TRef.of (T := ⟨S_, .f32⟩) main_call7_cst) (constant S_ .f32 0x7FC00000#32),
    TRef.unary (TRef.of (T := ⟨S_, .f32⟩) main_call7_cst) (TRef.of (T := ⟨S8x262144x16, .f32⟩) main_call7_v14) (broadcastInDim S8x262144x16 ![] bcast_S_S8x262144x16),
    TRef.ternary (TRef.of (T := ⟨S8x262144x16, .i1⟩) main_call7_v13) (TRef.of (T := ⟨S8x262144x16, .f32⟩) main_call7_v12) (TRef.of (T := ⟨S8x262144x16, .f32⟩) main_call7_v14) (TRef.of (T := ⟨S8x262144x16, .f32⟩) main_v58) select ]

/-- Stretch 16: the bottom-right image. -/
abbrev r16 : List (HloOp τ sig (Elt F)) :=
  [ reshape main_v58 main_v59 rfl shapeCasts_S8x262144x16_S8x512x512x16 ]

/-- The blend on the host: `top = tl + ax · (tr − tl)`, `bot = bl + ax · (br − bl)`, `top + ay · (bot − top)`, each weight map broadcast along the channels. -/
abbrev blendOps : List (HloOp τ sig (Elt F)) :=
  [ binary main_v41 main_v33 main_v60 (subf : (⟨S8x512x512x16, .f32⟩ : BufTy).Contents (Elt F) → (⟨S8x512x512x16, .f32⟩ : BufTy).Contents (Elt F) → (⟨S8x512x512x16, .f32⟩ : BufTy).Contents (Elt F)),
    unary main_v24 main_v61 (broadcastInDim S8x512x512x16 ![0, 1, 2, 3] bcast_S8x512x512x1_S8x512x512x16_0_1_2_3 : (⟨S8x512x512x1, .f32⟩ : BufTy).Contents (Elt F) → (⟨S8x512x512x16, .f32⟩ : BufTy).Contents (Elt F)),
    binary main_v61 main_v60 main_v62 (mulf : (⟨S8x512x512x16, .f32⟩ : BufTy).Contents (Elt F) → (⟨S8x512x512x16, .f32⟩ : BufTy).Contents (Elt F) → (⟨S8x512x512x16, .f32⟩ : BufTy).Contents (Elt F)),
    binary main_v33 main_v62 main_v63 (addf : (⟨S8x512x512x16, .f32⟩ : BufTy).Contents (Elt F) → (⟨S8x512x512x16, .f32⟩ : BufTy).Contents (Elt F) → (⟨S8x512x512x16, .f32⟩ : BufTy).Contents (Elt F)),
    binary main_v59 main_v49 main_v64 (subf : (⟨S8x512x512x16, .f32⟩ : BufTy).Contents (Elt F) → (⟨S8x512x512x16, .f32⟩ : BufTy).Contents (Elt F) → (⟨S8x512x512x16, .f32⟩ : BufTy).Contents (Elt F)),
    unary main_v24 main_v65 (broadcastInDim S8x512x512x16 ![0, 1, 2, 3] bcast_S8x512x512x1_S8x512x512x16_0_1_2_3 : (⟨S8x512x512x1, .f32⟩ : BufTy).Contents (Elt F) → (⟨S8x512x512x16, .f32⟩ : BufTy).Contents (Elt F)),
    binary main_v65 main_v64 main_v66 (mulf : (⟨S8x512x512x16, .f32⟩ : BufTy).Contents (Elt F) → (⟨S8x512x512x16, .f32⟩ : BufTy).Contents (Elt F) → (⟨S8x512x512x16, .f32⟩ : BufTy).Contents (Elt F)),
    binary main_v49 main_v66 main_v67 (addf : (⟨S8x512x512x16, .f32⟩ : BufTy).Contents (Elt F) → (⟨S8x512x512x16, .f32⟩ : BufTy).Contents (Elt F) → (⟨S8x512x512x16, .f32⟩ : BufTy).Contents (Elt F)),
    binary main_v67 main_v63 main_v68 (subf : (⟨S8x512x512x16, .f32⟩ : BufTy).Contents (Elt F) → (⟨S8x512x512x16, .f32⟩ : BufTy).Contents (Elt F) → (⟨S8x512x512x16, .f32⟩ : BufTy).Contents (Elt F)),
    unary main_v21 main_v69 (broadcastInDim S8x512x512x16 ![0, 1, 2, 3] bcast_S8x512x512x1_S8x512x512x16_0_1_2_3 : (⟨S8x512x512x1, .f32⟩ : BufTy).Contents (Elt F) → (⟨S8x512x512x16, .f32⟩ : BufTy).Contents (Elt F)),
    binary main_v69 main_v68 main_v70 (mulf : (⟨S8x512x512x16, .f32⟩ : BufTy).Contents (Elt F) → (⟨S8x512x512x16, .f32⟩ : BufTy).Contents (Elt F) → (⟨S8x512x512x16, .f32⟩ : BufTy).Contents (Elt F)),
    binary main_v63 main_v70 main_v71 (addf : (⟨S8x512x512x16, .f32⟩ : BufTy).Contents (Elt F) → (⟨S8x512x512x16, .f32⟩ : BufTy).Contents (Elt F) → (⟨S8x512x512x16, .f32⟩ : BufTy).Contents (Elt F)) ]

/-- The seventeen stretches in order: everything the reference shares with the kernel's program. -/
abbrev sharedOps : List (HloOp τ sig (Elt F)) :=
  r0 ++ (r1 ++ (r2 ++ (r3 ++ (r4 ++ (r5 ++ (r6 ++ (r7 ++ (r8 ++ (r9 ++ (r10 ++ (r11 ++ (r12 ++ (r13 ++ (r14 ++ (r15 ++ (r16))))))))))))))))

set_option maxRecDepth 16384 in
/-- The reference's operations are the shared stretches, then the blend. -/
theorem ops_eq : (Cert.ReferenceIdeal.RunCopy.ops : List (HloOp τ sig (Elt F))) = sharedOps ++ blendOps := rfl

end Cert.ReferenceIdeal.Chunks

end
-- ==== Proof.Shared.lean ====
/-
  The two programs agree on everything before the blend.

  The kernel's program and the reference run the same operations, in the same order, up to the point where the four
  gathered images and the two weight maps exist: the grid of pixel coordinates minus the flow gives the query points,
  their floors clipped to [0, 510] give the top-left source pixel, the clipped fractions give the weights, and four
  gathers fetch the source pixels around each query point. The kernel's program states these operations in seventeen
  stretches and the reference's list is cut at the same places. For every stretch, if the two memories hold the same
  arrays at the buffers the stretch reads, they hold the same arrays at the buffers it writes: both sides are the
  same operations of the same operands. Which buffers still matter after each stretch is recorded in `Live0 … Live16`
  (a buffer leaves the record once nothing later reads it). Chaining the seventeen steps from memories that agree on
  the two arguments gives agreement on the six arrays that enter the blend. No property of the operations is used.
-/
import proofs.«147620_j35158602285814_1_alg».proof.Proof.Gen.KernelIdeal.Launch
import proofs.«147620_j35158602285814_1_alg».proof.Proof.RefChunks
import Idealize.ShloMosaic.Lib.StableHlo.Run

noncomputable section

open Idealize.ShloMosaic Idealize.ShloMosaic.TcCoe Idealize.SL.Sem Idealize.ShloMosaic.StableHlo

namespace Cert.Shared

variable {F : FTy → Type} [FloatOps F]

/-- The kernel program's buffer contents on a core, -/
abbrev KVal (F : FTy → Type) [FloatOps F] := Valuation Cert.KernelIdeal.τ Cert.KernelIdeal.sig (Elt F)
/-- and the reference's. -/
abbrev RVal (F : FTy → Type) [FloatOps F] := Valuation Cert.ReferenceIdeal.τ Cert.ReferenceIdeal.sig (Elt F)

/-! ## Which buffers still matter after each stretch -/

/-- Before the first stretch: the two arguments, the image and the flow. -/
abbrev LiveIn (W : KVal F) (W' : RVal F) : Prop :=
  W (Proc.devRef .tc Cert.KernelIdeal.main_arg0) = W' (Proc.devRef .tc Cert.ReferenceIdeal.main_arg0)
  ∧ W (Proc.devRef .tc Cert.KernelIdeal.main_arg1) = W' (Proc.devRef .tc Cert.ReferenceIdeal.main_arg1)

/-- After stretch 0: the image; the query point's row and column components; the row component's floor; the first clip's bounds. -/
abbrev Live0 (W : KVal F) (W' : RVal F) : Prop :=
  W (Proc.devRef .tc Cert.KernelIdeal.main_arg0) = W' (Proc.devRef .tc Cert.ReferenceIdeal.main_arg0)
  ∧ W (Proc.devRef .tc Cert.KernelIdeal.main_v12) = W' (Proc.devRef .tc Cert.ReferenceIdeal.main_v12)
  ∧ W (Proc.devRef .tc Cert.KernelIdeal.main_v14) = W' (Proc.devRef .tc Cert.ReferenceIdeal.main_v14)
  ∧ W (Proc.devRef .tc Cert.KernelIdeal.main_v15) = W' (Proc.devRef .tc Cert.ReferenceIdeal.main_v15)
  ∧ W (Proc.devRef .tc Cert.KernelIdeal.main_cst) = W' (Proc.devRef .tc Cert.ReferenceIdeal.main_cst)
  ∧ W (Proc.devRef .tc Cert.KernelIdeal.main_c) = W' (Proc.devRef .tc Cert.ReferenceIdeal.main_c)

/-- After stretch 1: the image; the two components; the clipped row floor. -/
abbrev Live1 (W : KVal F) (W' : RVal F) : Prop :=
  W (Proc.devRef .tc Cert.KernelIdeal.main_arg0) = W' (Proc.devRef .tc Cert.ReferenceIdeal.main_arg0)
  ∧ W (Proc.devRef .tc Cert.KernelIdeal.main_v12) = W' (Proc.devRef .tc Cert.ReferenceIdeal.main_v12)
  ∧ W (Proc.devRef .tc Cert.KernelIdeal.main_v14) = W' (Proc.devRef .tc Cert.ReferenceIdeal.main_v14)
  ∧ W (Proc.devRef .tc Cert.KernelIdeal.main_v16) = W' (Proc.devRef .tc Cert.ReferenceIdeal.main_v16)

/-- After stretch 2: also the column component's floor and the second clip's bounds. -/
abbrev Live2 (W : KVal F) (W' : RVal F) : Prop :=
  W (Proc.devRef .tc Cert.KernelIdeal.main_arg0) = W' (Proc.devRef .tc Cert.ReferenceIdeal.main_arg0)
  ∧ W (Proc.devRef .tc Cert.KernelIdeal.main_v12) = W' (Proc.devRef .tc Cert.ReferenceIdeal.main_v12)
  ∧ W (Proc.devRef .tc Cert.KernelIdeal.main_v14) = W' (Proc.devRef .tc Cert.ReferenceIdeal.main_v14)
  ∧ W (Proc.devRef .tc Cert.KernelIdeal.main_v16) = W' (Proc.devRef .tc Cert.ReferenceIdeal.main_v16)
  ∧ W (Proc.devRef .tc Cert.KernelIdeal.main_v17) = W' (Proc.devRef .tc Cert.ReferenceIdeal.main_v17)
  ∧ W (Proc.devRef .tc Cert.KernelIdeal.main_cst_0) = W' (Proc.devRef .tc Cert.ReferenceIdeal.main_cst_0)
  ∧ W (Proc.devRef .tc Cert.KernelIdeal.main_c_1) = W' (Proc.devRef .tc Cert.ReferenceIdeal.main_c_1)

/-- After stretch 3: the image; the two components; the two clipped floors. -/
abbrev Live3 (W : KVal F) (W' : RVal F) : Prop :=
  W (Proc.devRef .tc Cert.KernelIdeal.main_arg0) = W' (Proc.devRef .tc Cert.ReferenceIdeal.main_arg0)
  ∧ W (Proc.devRef .tc Cert.KernelIdeal.main_v12) = W' (Proc.devRef .tc Cert.ReferenceIdeal.main_v12)
  ∧ W (Proc.devRef .tc Cert.KernelIdeal.main_v14) = W' (Proc.devRef .tc Cert.ReferenceIdeal.main_v14)
  ∧ W (Proc.devRef .tc Cert.KernelIdeal.main_v16) = W' (Proc.devRef .tc Cert.ReferenceIdeal.main_v16)
  ∧ W (Proc.devRef .tc Cert.KernelIdeal.main_v18) = W' (Proc.devRef .tc Cert.ReferenceIdeal.main_v18)

/-- After stretch 4: the image; the column component; the clipped floors; the row fraction before its clip, with the bounds 0 and 1. -/
abbrev Live4 (W : KVal F) (W' : RVal F) : Prop :=
  W (Proc.devRef .tc Cert.KernelIdeal.main_arg0) = W' (Proc.devRef .tc Cert.ReferenceIdeal.main_arg0)
  ∧ W (Proc.devRef .tc Cert.KernelIdeal.main_v14) = W' (Proc.devRef .tc Cert.ReferenceIdeal.main_v14)
  ∧ W (Proc.devRef .tc Cert.KernelIdeal.main_v16) = W' (Proc.devRef .tc Cert.ReferenceIdeal.main_v16)
  ∧ W (Proc.devRef .tc Cert.KernelIdeal.main_v18) = W' (Proc.devRef .tc Cert.ReferenceIdeal.main_v18)
  ∧ W (Proc.devRef .tc Cert.KernelIdeal.main_v19) = W' (Proc.devRef .tc Cert.ReferenceIdeal.main_v19)
  ∧ W (Proc.devRef .tc Cert.KernelIdeal.main_cst_2) = W' (Proc.devRef .tc Cert.ReferenceIdeal.main_cst_2)
  ∧ W (Proc.devRef .tc Cert.KernelIdeal.main_cst_3) = W' (Proc.devRef .tc Cert.ReferenceIdeal.main_cst_3)

/-- After stretch 5: the image; the column component; the clipped floors; the clipped row fraction. -/
abbrev Live5 (W : KVal F) (W' : RVal F) : Prop :=
  W (Proc.devRef .tc Cert.KernelIdeal.main_arg0) = W' (Proc.devRef .tc Cert.ReferenceIdeal.main_arg0)
  ∧ W (Proc.devRef .tc Cert.KernelIdeal.main_v14) = W' (Proc.devRef .tc Cert.ReferenceIdeal.main_v14)
  ∧ W (Proc.devRef .tc Cert.KernelIdeal.main_v16) = W' (Proc.devRef .tc Cert.ReferenceIdeal.main_v16)
  ∧ W (Proc.devRef .tc Cert.KernelIdeal.main_v18) = W' (Proc.devRef .tc Cert.ReferenceIdeal.main_v18)
  ∧ W (Proc.devRef .tc Cert.KernelIdeal.main_v20) = W' (Proc.devRef .tc Cert.ReferenceIdeal.main_v20)

/-- After stretch 6: the image; the clipped floors; the vertical weight map; the column fraction before its clip, with the bounds 0 and 1. -/
abbrev Live6 (W : KVal F) (W' : RVal F) : Prop :=
  W (Proc.devRef .tc Cert.KernelIdeal.main_arg0) = W' (Proc.devRef .tc Cert.ReferenceIdeal.main_arg0)
  ∧ W (Proc.devRef .tc Cert.KernelIdeal.main_v16) = W' (Proc.devRef .tc Cert.ReferenceIdeal.main_v16)
  ∧ W (Proc.devRef .tc Cert.KernelIdeal.main_v18) = W' (Proc.devRef .tc Cert.ReferenceIdeal.main_v18)
  ∧ W (Proc.devRef .tc Cert.KernelIdeal.main_v21) = W' (Proc.devRef .tc Cert.ReferenceIdeal.main_v21)
  ∧ W (Proc.devRef .tc Cert.KernelIdeal.main_v22) = W' (Proc.devRef .tc Cert.ReferenceIdeal.main_v22)
  ∧ W (Proc.devRef .tc Cert.KernelIdeal.main_cst_4) = W' (Proc.devRef .tc Cert.ReferenceIdeal.main_cst_4)
  ∧ W (Proc.devRef .tc Cert.KernelIdeal.main_cst_5) = W' (Proc.devRef .tc Cert.ReferenceIdeal.main_cst_5)

/-- After stretch 7: the image; the clipped floors; the vertical weight map; the clipped column fraction. -/
abbrev Live7 (W : KVal F) (W' : RVal F) : Prop :=
  W (Proc.devRef .tc Cert.KernelIdeal.main_arg0) = W' (Proc.devRef .tc Cert.ReferenceIdeal.main_arg0)
  ∧ W (Proc.devRef .tc Cert.KernelIdeal.main_v16) = W' (Proc.devRef .tc Cert.ReferenceIdeal.main_v16)
  ∧ W (Proc.devRef .tc Cert.KernelIdeal.main_v18) = W' (Proc.devRef .tc Cert.ReferenceIdeal.main_v18)
  ∧ W (Proc.devRef .tc Cert.KernelIdeal.main_v21) = W' (Proc.devRef .tc Cert.ReferenceIdeal.main_v21)
  ∧ W (Proc.devRef .tc Cert.KernelIdeal.main_v23) = W' (Proc.devRef .tc Cert.ReferenceIdeal.main_v23)

/-- After stretch 8: the two weight maps; the integer floors; the image as a table of pixels; the top-left linear indices. -/
abbrev Live8 (W : KVal F) (W' : RVal F) : Prop :=
  W (Proc.devRef .tc Cert.KernelIdeal.main_v21) = W' (Proc.devRef .tc Cert.ReferenceIdeal.main_v21)
  ∧ W (Proc.devRef .tc Cert.KernelIdeal.main_v24) = W' (Proc.devRef .tc Cert.ReferenceIdeal.main_v24)
  ∧ W (Proc.devRef .tc Cert.KernelIdeal.main_v25) = W' (Proc.devRef .tc Cert.ReferenceIdeal.main_v25)
  ∧ W (Proc.devRef .tc Cert.KernelIdeal.main_v26) = W' (Proc.devRef .tc Cert.ReferenceIdeal.main_v26)
  ∧ W (Proc.devRef .tc Cert.KernelIdeal.main_v27) = W' (Proc.devRef .tc Cert.ReferenceIdeal.main_v27)
  ∧ W (Proc.devRef .tc Cert.KernelIdeal.main_v31) = W' (Proc.devRef .tc Cert.ReferenceIdeal.main_v31)

/-- After stretch 9: the same with the top-left gather's result in place of its indices. -/
abbrev Live9 (W : KVal F) (W' : RVal F) : Prop :=
  W (Proc.devRef .tc Cert.KernelIdeal.main_v21) = W' (Proc.devRef .tc Cert.ReferenceIdeal.main_v21)
  ∧ W (Proc.devRef .tc Cert.KernelIdeal.main_v24) = W' (Proc.devRef .tc Cert.ReferenceIdeal.main_v24)
  ∧ W (Proc.devRef .tc Cert.KernelIdeal.main_v25) = W' (Proc.devRef .tc Cert.ReferenceIdeal.main_v25)
  ∧ W (Proc.devRef .tc Cert.KernelIdeal.main_v26) = W' (Proc.devRef .tc Cert.ReferenceIdeal.main_v26)
  ∧ W (Proc.devRef .tc Cert.KernelIdeal.main_v27) = W' (Proc.devRef .tc Cert.ReferenceIdeal.main_v27)
  ∧ W (Proc.devRef .tc Cert.KernelIdeal.main_v32) = W' (Proc.devRef .tc Cert.ReferenceIdeal.main_v32)

/-- After stretch 10: the top-left image, and the top-right linear indices. -/
abbrev Live10 (W : KVal F) (W' : RVal F) : Prop :=
  W (Proc.devRef .tc Cert.KernelIdeal.main_v21) = W' (Proc.devRef .tc Cert.ReferenceIdeal.main_v21)
  ∧ W (Proc.devRef .tc Cert.KernelIdeal.main_v24) = W' (Proc.devRef .tc Cert.ReferenceIdeal.main_v24)
  ∧ W (Proc.devRef .tc Cert.KernelIdeal.main_v25) = W' (Proc.devRef .tc Cert.ReferenceIdeal.main_v25)
  ∧ W (Proc.devRef .tc Cert.KernelIdeal.main_v26) = W' (Proc.devRef .tc Cert.ReferenceIdeal.main_v26)
  ∧ W (Proc.devRef .tc Cert.KernelIdeal.main_v27) = W' (Proc.devRef .tc Cert.ReferenceIdeal.main_v27)
  ∧ W (Proc.devRef .tc Cert.KernelIdeal.main_v33) = W' (Proc.devRef .tc Cert.ReferenceIdeal.main_v33)
  ∧ W (Proc.devRef .tc Cert.KernelIdeal.main_v39) = W' (Proc.devRef .tc Cert.ReferenceIdeal.main_v39)

/-- After stretch 11: the top-right gather's result. -/
abbrev Live11 (W : KVal F) (W' : RVal F) : Prop :=
  W (Proc.devRef .tc Cert.KernelIdeal.main_v21) = W' (Proc.devRef .tc Cert.ReferenceIdeal.main_v21)
  ∧ W (Proc.devRef .tc Cert.KernelIdeal.main_v24) = W' (Proc.devRef .tc Cert.ReferenceIdeal.main_v24)
  ∧ W (Proc.devRef .tc Cert.KernelIdeal.main_v25) = W' (Proc.devRef .tc Cert.ReferenceIdeal.main_v25)
  ∧ W (Proc.devRef .tc Cert.KernelIdeal.main_v26) = W' (Proc.devRef .tc Cert.ReferenceIdeal.main_v26)
  ∧ W (Proc.devRef .tc Cert.KernelIdeal.main_v27) = W' (Proc.devRef .tc Cert.ReferenceIdeal.main_v27)
  ∧ W (Proc.devRef .tc Cert.KernelIdeal.main_v33) = W' (Proc.devRef .tc Cert.ReferenceIdeal.main_v33)
  ∧ W (Proc.devRef .tc Cert.KernelIdeal.main_v40) = W' (Proc.devRef .tc Cert.ReferenceIdeal.main_v40)

/-- After stretch 12: the top-right image, and the bottom-left linear indices. -/
abbrev Live12 (W : KVal F) (W' : RVal F) : Prop :=
  W (Proc.devRef .tc Cert.KernelIdeal.main_v21) = W' (Proc.devRef .tc Cert.ReferenceIdeal.main_v21)
  ∧ W (Proc.devRef .tc Cert.KernelIdeal.main_v24) = W' (Proc.devRef .tc Cert.ReferenceIdeal.main_v24)
  ∧ W (Proc.devRef .tc Cert.KernelIdeal.main_v25) = W' (Proc.devRef .tc Cert.ReferenceIdeal.main_v25)
  ∧ W (Proc.devRef .tc Cert.KernelIdeal.main_v26) = W' (Proc.devRef .tc Cert.ReferenceIdeal.main_v26)
  ∧ W (Proc.devRef .tc Cert.KernelIdeal.main_v27) = W' (Proc.devRef .tc Cert.ReferenceIdeal.main_v27)
  ∧ W (Proc.devRef .tc Cert.KernelIdeal.main_v33) = W' (Proc.devRef .tc Cert.ReferenceIdeal.main_v33)
  ∧ W (Proc.devRef .tc Cert.KernelIdeal.main_v41) = W' (Proc.devRef .tc Cert.ReferenceIdeal.main_v41)
  ∧ W (Proc.devRef .tc Cert.KernelIdeal.main_v47) = W' (Proc.devRef .tc Cert.ReferenceIdeal.main_v47)

/-- After stretch 13: the bottom-left gather's result. -/
abbrev Live13 (W : KVal F) (W' : RVal F) : Prop :=
  W (Proc.devRef .tc Cert.KernelIdeal.main_v21) = W' (Proc.devRef .tc Cert.ReferenceIdeal.main_v21)
  ∧ W (Proc.devRef .tc Cert.KernelIdeal.main_v24) = W' (Proc.devRef .tc Cert.ReferenceIdeal.main_v24)
  ∧ W (Proc.devRef .tc Cert.KernelIdeal.main_v25) = W' (Proc.devRef .tc Cert.ReferenceIdeal.main_v25)
  ∧ W (Proc.devRef .tc Cert.KernelIdeal.main_v26) = W' (Proc.devRef .tc Cert.ReferenceIdeal.main_v26)
  ∧ W (Proc.devRef .tc Cert.KernelIdeal.main_v27) = W' (Proc.devRef .tc Cert.ReferenceIdeal.main_v27)
  ∧ W (Proc.devRef .tc Cert.KernelIdeal.main_v33) = W' (Proc.devRef .tc Cert.ReferenceIdeal.main_v33)
  ∧ W (Proc.devRef .tc Cert.KernelIdeal.main_v41) = W' (Proc.devRef .tc Cert.ReferenceIdeal.main_v41)
  ∧ W (Proc.devRef .tc Cert.KernelIdeal.main_v48) = W' (Proc.devRef .tc Cert.ReferenceIdeal.main_v48)

/-- After stretch 14: the bottom-left image, and the bottom-right linear indices (the integer floors are read no more). -/
abbrev Live14 (W : KVal F) (W' : RVal F) : Prop :=
  W (Proc.devRef .tc Cert.KernelIdeal.main_v21) = W' (Proc.devRef .tc Cert.ReferenceIdeal.main_v21)
  ∧ W (Proc.devRef .tc Cert.KernelIdeal.main_v24) = W' (Proc.devRef .tc Cert.ReferenceIdeal.main_v24)
  ∧ W (Proc.devRef .tc Cert.KernelIdeal.main_v27) = W' (Proc.devRef .tc Cert.ReferenceIdeal.main_v27)
  ∧ W (Proc.devRef .tc Cert.KernelIdeal.main_v33) = W' (Proc.devRef .tc Cert.ReferenceIdeal.main_v33)
  ∧ W (Proc.devRef .tc Cert.KernelIdeal.main_v41) = W' (Proc.devRef .tc Cert.ReferenceIdeal.main_v41)
  ∧ W (Proc.devRef .tc Cert.KernelIdeal.main_v49) = W' (Proc.devRef .tc Cert.ReferenceIdeal.main_v49)
  ∧ W (Proc.devRef .tc Cert.KernelIdeal.main_v57) = W' (Proc.devRef .tc Cert.ReferenceIdeal.main_v57)

/-- After stretch 15: the bottom-right gather's result (the table of pixels is read no more). -/
abbrev Live15 (W : KVal F) (W' : RVal F) : Prop :=
  W (Proc.devRef .tc Cert.KernelIdeal.main_v21) = W' (Proc.devRef .tc Cert.ReferenceIdeal.main_v21)
  ∧ W (Proc.devRef .tc Cert.KernelIdeal.main_v24) = W' (Proc.devRef .tc Cert.ReferenceIdeal.main_v24)
  ∧ W (Proc.devRef .tc Cert.KernelIdeal.main_v33) = W' (Proc.devRef .tc Cert.ReferenceIdeal.main_v33)
  ∧ W (Proc.devRef .tc Cert.KernelIdeal.main_v41) = W' (Proc.devRef .tc Cert.ReferenceIdeal.main_v41)
  ∧ W (Proc.devRef .tc Cert.KernelIdeal.main_v49) = W' (Proc.devRef .tc Cert.ReferenceIdeal.main_v49)
  ∧ W (Proc.devRef .tc Cert.KernelIdeal.main_v58) = W' (Proc.devRef .tc Cert.ReferenceIdeal.main_v58)

/-- After stretch 16: the two weight maps and the four gathered images — what the kernel's call stages, and what the reference's blend reads. -/
abbrev Live16 (W : KVal F) (W' : RVal F) : Prop :=
  W (Proc.devRef .tc Cert.KernelIdeal.main_v21) = W' (Proc.devRef .tc Cert.ReferenceIdeal.main_v21)
  ∧ W (Proc.devRef .tc Cert.KernelIdeal.main_v24) = W' (Proc.devRef .tc Cert.ReferenceIdeal.main_v24)
  ∧ W (Proc.devRef .tc Cert.KernelIdeal.main_v33) = W' (Proc.devRef .tc Cert.ReferenceIdeal.main_v33)
  ∧ W (Proc.devRef .tc Cert.KernelIdeal.main_v41) = W' (Proc.devRef .tc Cert.ReferenceIdeal.main_v41)
  ∧ W (Proc.devRef .tc Cert.KernelIdeal.main_v49) = W' (Proc.devRef .tc Cert.ReferenceIdeal.main_v49)
  ∧ W (Proc.devRef .tc Cert.KernelIdeal.main_v59) = W' (Proc.devRef .tc Cert.ReferenceIdeal.main_v59)

/-! ## One step per stretch -/

set_option maxHeartbeats 16000000 in
/-- The grid of pixel coordinates minus the flow is the query point; its row and column components, the row's floor and the two bounds are the same functions of the flow in both programs (the coordinate grid itself, a concatenation of two iotas, is a constant). -/
theorem step0 (W : KVal F) (W' : RVal F) (h : LiveIn W W') :
    Live0 (after Cert.KernelIdeal.Gen.hostOps0 W) (after Cert.ReferenceIdeal.Chunks.r0 W') := by
  obtain ⟨h_arg0, h_arg1⟩ := h
  refine ⟨?_, ?_, ?_, ?_, ?_, ?_⟩ <;> simp only [Cert.KernelIdeal.Gen.hostOps0, Cert.ReferenceIdeal.Chunks.r0] <;> after_results <;>
    (try simp only [h_arg0, h_arg1]) <;> (try rfl)

set_option maxHeartbeats 16000000 in
/-- Clipping the row floor to [0, 510]. -/
theorem step1 (W : KVal F) (W' : RVal F) (h : Live0 W W') :
    Live1 (after Cert.KernelIdeal.Gen.hostOps0_1 W) (after Cert.ReferenceIdeal.Chunks.r1 W') := by
  obtain ⟨h_arg0, h_v12, h_v14, h_v15, h_cst, h_c⟩ := h
  refine ⟨?_, ?_, ?_, ?_⟩ <;> simp only [Cert.KernelIdeal.Gen.hostOps0_1, Cert.ReferenceIdeal.Chunks.r1] <;> after_results <;>
    (try simp only [h_arg0, h_v12, h_v14, h_v15, h_cst, h_c]) <;> (try rfl)

set_option maxHeartbeats 16000000 in
/-- The column floor and the second clip's bounds. -/
theorem step2 (W : KVal F) (W' : RVal F) (h : Live1 W W') :
    Live2 (after Cert.KernelIdeal.Gen.hostOps0_2 W) (after Cert.ReferenceIdeal.Chunks.r2 W') := by
  obtain ⟨h_arg0, h_v12, h_v14, h_v16⟩ := h
  refine ⟨?_, ?_, ?_, ?_, ?_, ?_, ?_⟩ <;> simp only [Cert.KernelIdeal.Gen.hostOps0_2, Cert.ReferenceIdeal.Chunks.r2] <;> after_results <;>
    (try simp only [h_arg0, h_v12, h_v14, h_v16]) <;> (try rfl)

set_option maxHeartbeats 16000000 in
/-- Clipping the column floor to [0, 510]. -/
theorem step3 (W : KVal F) (W' : RVal F) (h : Live2 W W') :
    Live3 (after Cert.KernelIdeal.Gen.hostOps0_3 W) (after Cert.ReferenceIdeal.Chunks.r3 W') := by
  obtain ⟨h_arg0, h_v12, h_v14, h_v16, h_v17, h_cst_0, h_c_1⟩ := h
  refine ⟨?_, ?_, ?_, ?_, ?_⟩ <;> simp only [Cert.KernelIdeal.Gen.hostOps0_3, Cert.ReferenceIdeal.Chunks.r3] <;> after_results <;>
    (try simp only [h_arg0, h_v12, h_v14, h_v16, h_v17, h_cst_0, h_c_1]) <;> (try rfl)

set_option maxHeartbeats 16000000 in
/-- The row fraction, the row component minus its clipped floor, and the bounds 0 and 1. -/
theorem step4 (W : KVal F) (W' : RVal F) (h : Live3 W W') :
    Live4 (after Cert.KernelIdeal.Gen.hostOps0_4 W) (after Cert.ReferenceIdeal.Chunks.r4 W') := by
  obtain ⟨h_arg0, h_v12, h_v14, h_v16, h_v18⟩ := h
  refine ⟨?_, ?_, ?_, ?_, ?_, ?_, ?_⟩ <;> simp only [Cert.KernelIdeal.Gen.hostOps0_4, Cert.ReferenceIdeal.Chunks.r4] <;> after_results <;>
    (try simp only [h_arg0, h_v12, h_v14, h_v16, h_v18]) <;> (try rfl)

set_option maxHeartbeats 16000000 in
/-- Clipping the row fraction to [0, 1]. -/
theorem step5 (W : KVal F) (W' : RVal F) (h : Live4 W W') :
    Live5 (after Cert.KernelIdeal.Gen.hostOps0_5 W) (after Cert.ReferenceIdeal.Chunks.r5 W') := by
  obtain ⟨h_arg0, h_v14, h_v16, h_v18, h_v19, h_cst_2, h_cst_3⟩ := h
  refine ⟨?_, ?_, ?_, ?_, ?_⟩ <;> simp only [Cert.KernelIdeal.Gen.hostOps0_5, Cert.ReferenceIdeal.Chunks.r5] <;> after_results <;>
    (try simp only [h_arg0, h_v14, h_v16, h_v18, h_v19, h_cst_2, h_cst_3]) <;> (try rfl)

set_option maxHeartbeats 16000000 in
/-- The vertical weight map is the clipped row fraction with a channel axis of extent one; the column fraction and the bounds 0 and 1. -/
theorem step6 (W : KVal F) (W' : RVal F) (h : Live5 W W') :
    Live6 (after Cert.KernelIdeal.Gen.hostOps0_6 W) (after Cert.ReferenceIdeal.Chunks.r6 W') := by
  obtain ⟨h_arg0, h_v14, h_v16, h_v18, h_v20⟩ := h
  refine ⟨?_, ?_, ?_, ?_, ?_, ?_, ?_⟩ <;> simp only [Cert.KernelIdeal.Gen.hostOps0_6, Cert.ReferenceIdeal.Chunks.r6] <;> after_results <;>
    (try simp only [h_arg0, h_v14, h_v16, h_v18, h_v20]) <;> (try rfl)

set_option maxHeartbeats 16000000 in
/-- Clipping the column fraction to [0, 1]. -/
theorem step7 (W : KVal F) (W' : RVal F) (h : Live6 W W') :
    Live7 (after Cert.KernelIdeal.Gen.hostOps0_7 W) (after Cert.ReferenceIdeal.Chunks.r7 W') := by
  obtain ⟨h_arg0, h_v16, h_v18, h_v21, h_v22, h_cst_4, h_cst_5⟩ := h
  refine ⟨?_, ?_, ?_, ?_, ?_⟩ <;> simp only [Cert.KernelIdeal.Gen.hostOps0_7, Cert.ReferenceIdeal.Chunks.r7] <;> after_results <;>
    (try simp only [h_arg0, h_v16, h_v18, h_v21, h_v22, h_cst_4, h_cst_5]) <;> (try rfl)

set_option maxHeartbeats 16000000 in
/-- The horizontal weight map; the clipped floors converted to integers; the image reshaped to [8, 262144, 16]; the top-left pixel's linear index `iy · 512 + ix`. -/
theorem step8 (W : KVal F) (W' : RVal F) (h : Live7 W W') :
    Live8 (after Cert.KernelIdeal.Gen.hostOps0_8 W) (after Cert.ReferenceIdeal.Chunks.r8 W') := by
  obtain ⟨h_arg0, h_v16, h_v18, h_v21, h_v23⟩ := h
  refine ⟨?_, ?_, ?_, ?_, ?_, ?_⟩ <;> simp only [Cert.KernelIdeal.Gen.hostOps0_8, Cert.ReferenceIdeal.Chunks.r8] <;> after_results <;>
    (try simp only [h_arg0, h_v16, h_v18, h_v21, h_v23]) <;> (try rfl)

set_option maxHeartbeats 16000000 in
/-- The top-left gather: the index wrapped if negative, tested against [0, 262143], the rows gathered, and filled where the test fails. -/
theorem step9 (W : KVal F) (W' : RVal F) (h : Live8 W W') :
    Live9 (after Cert.KernelIdeal.Gen.hostOps0_9 W) (after Cert.ReferenceIdeal.Chunks.r9 W') := by
  obtain ⟨h_v21, h_v24, h_v25, h_v26, h_v27, h_v31⟩ := h
  refine ⟨?_, ?_, ?_, ?_, ?_, ?_⟩ <;> simp only [Cert.KernelIdeal.Gen.hostOps0_9, Cert.ReferenceIdeal.Chunks.r9] <;> after_results <;>
    (try simp only [h_v21, h_v24, h_v25, h_v26, h_v27, h_v31]) <;> (try rfl)

set_option maxHeartbeats 16000000 in
/-- The top-left image, and the top-right pixel's linear index `iy · 512 + (ix + 1)`. -/
theorem step10 (W : KVal F) (W' : RVal F) (h : Live9 W W') :
    Live10 (after Cert.KernelIdeal.Gen.hostOps0_10 W) (after Cert.ReferenceIdeal.Chunks.r10 W') := by
  obtain ⟨h_v21, h_v24, h_v25, h_v26, h_v27, h_v32⟩ := h
  refine ⟨?_, ?_, ?_, ?_, ?_, ?_, ?_⟩ <;> simp only [Cert.KernelIdeal.Gen.hostOps0_10, Cert.ReferenceIdeal.Chunks.r10] <;> after_results <;>
    (try simp only [h_v21, h_v24, h_v25, h_v26, h_v27, h_v32]) <;> (try rfl)

set_option maxHeartbeats 16000000 in
/-- The top-right gather. -/
theorem step11 (W : KVal F) (W' : RVal F) (h : Live10 W W') :
    Live11 (after Cert.KernelIdeal.Gen.hostOps0_11 W) (after Cert.ReferenceIdeal.Chunks.r11 W') := by
  obtain ⟨h_v21, h_v24, h_v25, h_v26, h_v27, h_v33, h_v39⟩ := h
  refine ⟨?_, ?_, ?_, ?_, ?_, ?_, ?_⟩ <;> simp only [Cert.KernelIdeal.Gen.hostOps0_11, Cert.ReferenceIdeal.Chunks.r11] <;> after_results <;>
    (try simp only [h_v21, h_v24, h_v25, h_v26, h_v27, h_v33, h_v39]) <;> (try rfl)

set_option maxHeartbeats 16000000 in
/-- The top-right image, and the bottom-left pixel's linear index `(iy + 1) · 512 + ix`. -/
theorem step12 (W : KVal F) (W' : RVal F) (h : Live11 W W') :
    Live12 (after Cert.KernelIdeal.Gen.hostOps0_12 W) (after Cert.ReferenceIdeal.Chunks.r12 W') := by
  obtain ⟨h_v21, h_v24, h_v25, h_v26, h_v27, h_v33, h_v40⟩ := h
  refine ⟨?_, ?_, ?_, ?_, ?_, ?_, ?_, ?_⟩ <;> simp only [Cert.KernelIdeal.Gen.hostOps0_12, Cert.ReferenceIdeal.Chunks.r12] <;> after_results <;>
    (try simp only [h_v21, h_v24, h_v25, h_v26, h_v27, h_v33, h_v40]) <;> (try rfl)

set_option maxHeartbeats 16000000 in
/-- The bottom-left gather. -/
theorem step13 (W : KVal F) (W' : RVal F) (h : Live12 W W') :
    Live13 (after Cert.KernelIdeal.Gen.hostOps0_13 W) (after Cert.ReferenceIdeal.Chunks.r13 W') := by
  obtain ⟨h_v21, h_v24, h_v25, h_v26, h_v27, h_v33, h_v41, h_v47⟩ := h
  refine ⟨?_, ?_, ?_, ?_, ?_, ?_, ?_, ?_⟩ <;> simp only [Cert.KernelIdeal.Gen.hostOps0_13, Cert.ReferenceIdeal.Chunks.r13] <;> after_results <;>
    (try simp only [h_v21, h_v24, h_v25, h_v26, h_v27, h_v33, h_v41, h_v47]) <;> (try rfl)

set_option maxHeartbeats 16000000 in
/-- The bottom-left image, and the bottom-right pixel's linear index `(iy + 1) · 512 + (ix + 1)`. -/
theorem step14 (W : KVal F) (W' : RVal F) (h : Live13 W W') :
    Live14 (after Cert.KernelIdeal.Gen.hostOps0_14 W) (after Cert.ReferenceIdeal.Chunks.r14 W') := by
  obtain ⟨h_v21, h_v24, h_v25, h_v26, h_v27, h_v33, h_v41, h_v48⟩ := h
  refine ⟨?_, ?_, ?_, ?_, ?_, ?_, ?_⟩ <;> simp only [Cert.KernelIdeal.Gen.hostOps0_14, Cert.ReferenceIdeal.Chunks.r14] <;> after_results <;>
    (try simp only [h_v21, h_v24, h_v25, h_v26, h_v27, h_v33, h_v41, h_v48]) <;> (try rfl)

set_option maxHeartbeats 16000000 in
/-- The bottom-right gather. -/
theorem step15 (W : KVal F) (W' : RVal F) (h : Live14 W W') :
    Live15 (after Cert.KernelIdeal.Gen.hostOps0_15 W) (after Cert.ReferenceIdeal.Chunks.r15 W') := by
  obtain ⟨h_v21, h_v24, h_v27, h_v33, h_v41, h_v49, h_v57⟩ := h
  refine ⟨?_, ?_, ?_, ?_, ?_, ?_⟩ <;> simp only [Cert.KernelIdeal.Gen.hostOps0_15, Cert.ReferenceIdeal.Chunks.r15] <;> after_results <;>
    (try simp only [h_v21, h_v24, h_v27, h_v33, h_v41, h_v49, h_v57]) <;> (try rfl)

set_option maxHeartbeats 16000000 in
/-- The bottom-right image. -/
theorem step16 (W : KVal F) (W' : RVal F) (h : Live15 W W') :
    Live16 (after Cert.KernelIdeal.Gen.hostOps0_16 W) (after Cert.ReferenceIdeal.Chunks.r16 W') := by
  obtain ⟨h_v21, h_v24, h_v33, h_v41, h_v49, h_v58⟩ := h
  refine ⟨?_, ?_, ?_, ?_, ?_, ?_⟩ <;> simp only [Cert.KernelIdeal.Gen.hostOps0_16, Cert.ReferenceIdeal.Chunks.r16] <;> after_results <;>
    (try simp only [h_v21, h_v24, h_v33, h_v41, h_v49, h_v58]) <;> (try rfl)

/-! ## The chain -/

/-- The kernel program's seventeen stretches run one after the other. -/
abbrev kernelShared (V₀ : KVal F) : KVal F :=
  (after Cert.KernelIdeal.Gen.hostOps0_16 (after Cert.KernelIdeal.Gen.hostOps0_15 (after Cert.KernelIdeal.Gen.hostOps0_14 (after Cert.KernelIdeal.Gen.hostOps0_13 (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 V₀)))))))))))))))))
/-- The reference's. -/
abbrev referenceShared (V₀' : RVal F) : RVal F :=
  (after Cert.ReferenceIdeal.Chunks.r16 (after Cert.ReferenceIdeal.Chunks.r15 (after Cert.ReferenceIdeal.Chunks.r14 (after Cert.ReferenceIdeal.Chunks.r13 (after Cert.ReferenceIdeal.Chunks.r12 (after Cert.ReferenceIdeal.Chunks.r11 (after Cert.ReferenceIdeal.Chunks.r10 (after Cert.ReferenceIdeal.Chunks.r9 (after Cert.ReferenceIdeal.Chunks.r8 (after Cert.ReferenceIdeal.Chunks.r7 (after Cert.ReferenceIdeal.Chunks.r6 (after Cert.ReferenceIdeal.Chunks.r5 (after Cert.ReferenceIdeal.Chunks.r4 (after Cert.ReferenceIdeal.Chunks.r3 (after Cert.ReferenceIdeal.Chunks.r2 (after Cert.ReferenceIdeal.Chunks.r1 (after Cert.ReferenceIdeal.Chunks.r0 V₀')))))))))))))))))

/-- From memories that agree on the image and the flow, the two programs reach memories that agree on the two weight
    maps and the four gathered images. -/
theorem agree (V₀ : KVal F) (V₀' : RVal F) (h : LiveIn V₀ V₀') : Live16 (kernelShared V₀) (referenceShared V₀') :=
  (step16 _ _ (step15 _ _ (step14 _ _ (step13 _ _ (step12 _ _ (step11 _ _ (step10 _ _ (step9 _ _ (step8 _ _ (step7 _ _ (step6 _ _ (step5 _ _ (step4 _ _ (step3 _ _ (step2 _ _ (step1 _ _ (step0 _ _ h)))))))))))))))))

end Cert.Shared

end
-- ==== Proof.RefTail.lean ====
/-
  The reference's last twelve operations are the bilinear blend.

  From any memory, after the twelve operations the result buffer holds, entry by entry,
  `top + ay · (bot − top)` with `top = tl + ax · (tr − tl)` and `bot = bl + ax · (br − bl)`, where the four images
  and the two weight maps are what the memory holds at the six buffers the operations read. The subtractions,
  products and sums act entry by entry; a weight map is broadcast along the channels first, and such a broadcast,
  along an axis of extent one, reads its operand at the same batch, row and column with the channel set to 0: the
  entry's pixel (`bcast_pixel`). No law of arithmetic is used.
-/
import proofs.«147620_j35158602285814_1_alg».proof.Proof.RefChunks
import proofs.«147620_j35158602285814_1_alg».proof.Proof.Blend
import Idealize.ShloMosaic.Lib.StableHlo.Run
import Idealize.ShloMosaic.Lib.Pipeline.Value

noncomputable section

open Idealize.ShloMosaic Idealize.ShloMosaic.TcCoe Idealize.SL.Sem Idealize.ShloMosaic.StableHlo

namespace Cert.ReferenceIdeal.Tail

open Cert.ReferenceIdeal Cert.ReferenceIdeal.Gen

variable {F : FTy → Type} [FloatOps F]

/-- A weight map broadcast along the channels holds, at an image entry, the map's weight at the entry's pixel. -/
theorem bcast_pixel (y : S8x512x512x1.Idx → Elt F .f32) (i : S8x512x512x16.Idx) :
    broadcastInDim S8x512x512x16 ![0, 1, 2, 3] bcast_S8x512x512x1_S8x512x512x16_0_1_2_3 y i = y (Cert.Blend.pixel i) :=
  broadcastInDim_apply _ bcast_S8x512x512x1_S8x512x512x16_0_1_2_3 y i (Cert.Blend.pixel i) (fun a => match a with
    | ⟨0, _⟩ => by show (i 0).val = if (8 : Nat) = 1 then 0 else (i 0).val; rw [if_neg (by decide)]
    | ⟨1, _⟩ => by show (i 1).val = if (512 : Nat) = 1 then 0 else (i 1).val; rw [if_neg (by decide)]
    | ⟨2, _⟩ => by show (i 2).val = if (512 : Nat) = 1 then 0 else (i 2).val; rw [if_neg (by decide)]
    | ⟨3, _⟩ => by show 0 = if (1 : Nat) = 1 then 0 else (i 3).val; rw [if_pos rfl])

set_option maxHeartbeats 8000000 in
/-- After the blend's operations the result buffer holds the blend of the six arrays the memory held before them:
    the four gathered images (top-left, top-right, bottom-left, bottom-right) by the horizontal and vertical weights. -/
theorem blend_result (W' : Valuation τ sig (Elt F)) :
    (after (Chunks.blendOps (F := F)) W' (Proc.devRef .tc main_v71) : S8x512x512x16.Idx → Elt F .f32)
      = Cert.Blend.blend (W' (Proc.devRef .tc main_v33)) (W' (Proc.devRef .tc main_v41)) (W' (Proc.devRef .tc main_v49)) (W' (Proc.devRef .tc main_v59)) (W' (Proc.devRef .tc main_v24)) (W' (Proc.devRef .tc main_v21)) := by
  simp only [Chunks.blendOps]
  after_results
  funext i
  rw [Cert.Blend.blend_apply]
  show FloatOps.addf (FloatOps.addf (W' (Proc.devRef .tc main_v33) i) (FloatOps.mulf (broadcastInDim S8x512x512x16 ![0, 1, 2, 3] bcast_S8x512x512x1_S8x512x512x16_0_1_2_3 (W' (Proc.devRef .tc main_v24)) i) (FloatOps.subf (W' (Proc.devRef .tc main_v41) i) (W' (Proc.devRef .tc main_v33) i)))) (FloatOps.mulf (broadcastInDim S8x512x512x16 ![0, 1, 2, 3] bcast_S8x512x512x1_S8x512x512x16_0_1_2_3 (W' (Proc.devRef .tc main_v21)) i) (FloatOps.subf (FloatOps.addf (W' (Proc.devRef .tc main_v49) i) (FloatOps.mulf (broadcastInDim S8x512x512x16 ![0, 1, 2, 3] bcast_S8x512x512x1_S8x512x512x16_0_1_2_3 (W' (Proc.devRef .tc main_v24)) i) (FloatOps.subf (W' (Proc.devRef .tc main_v59) i) (W' (Proc.devRef .tc main_v49) i)))) (FloatOps.addf (W' (Proc.devRef .tc main_v33) i) (FloatOps.mulf (broadcastInDim S8x512x512x16 ![0, 1, 2, 3] bcast_S8x512x512x1_S8x512x512x16_0_1_2_3 (W' (Proc.devRef .tc main_v24)) i) (FloatOps.subf (W' (Proc.devRef .tc main_v41) i) (W' (Proc.devRef .tc main_v33) i)))))) = _
  rw [bcast_pixel (W' (Proc.devRef .tc main_v24)) i, bcast_pixel (W' (Proc.devRef .tc main_v21)) i]

/-- The blend's operations leave the six arrays they read, and anything else but their own twelve results, as it was. -/
theorem blend_keeps (W' : Valuation τ sig (Elt F)) (r : Ref sig .tc)
    (hr : r ∉ [main_v60, main_v61, main_v62, main_v63, main_v64, main_v65, main_v66, main_v67, main_v68, main_v69, main_v70, main_v71]) :
    after (Chunks.blendOps (F := F)) W' (Proc.devRef .tc r) = W' (Proc.devRef .tc r) :=
  after_of_writes_sub _ _ (by
    simp only [Chunks.blendOps, List.Forall, StableHlo.unary_writes, StableHlo.binary_writes, List.map_cons, List.map_nil, List.toFinset_cons, List.toFinset_nil]
    repeat' apply And.intro
    all_goals (intro x hx; simp only [Finset.mem_singleton] at hx; subst hx; simp)) hr

end Cert.ReferenceIdeal.Tail

end
-- ==== Proof.Bridge.lean ====
/-
  The two programs end with the same result.

  The reference's run leaves every buffer at the fold of its operations over the launch memory. Its operations are the
  seventeen shared stretches followed by the blend, so its result is the blend of the six arrays the shared stretches
  leave (RefTail). The kernel program's result is the blend of the six arrays its call finds (KernelBlend), and what
  its call finds is what its own seventeen stretches leave. From launch memories that agree on the image and the flow
  the two programs' stretches leave the same six arrays (Shared). Hence the two results are one array. The
  reference's operations write neither argument, so its arguments end as launched.
-/
import proofs.«147620_j35158602285814_1_alg».proof.Proof.KernelBlend
import proofs.«147620_j35158602285814_1_alg».proof.Proof.Shared
import proofs.«147620_j35158602285814_1_alg».proof.Proof.RefTail

noncomputable section

open Idealize.ShloMosaic Idealize.ShloMosaic.TcCoe Idealize.SL.Sem Idealize.ShloMosaic.StableHlo

namespace Cert.Bridge

variable {F : FTy → Type} [FloatOps F]

/-- The blend of equal arrays is equal. -/
theorem blend_congr {tl tl' tr tr' bl bl' br br' : Cert.Blend.Img.Idx → Elt F .f32} {ax ax' ay ay' : Cert.Blend.Wt.Idx → Elt F .f32}
    (h0 : tl = tl') (h1 : tr = tr') (h2 : bl = bl') (h3 : br = br') (h4 : ax = ax') (h5 : ay = ay') :
    Cert.Blend.blend tl tr bl br ax ay = Cert.Blend.blend tl' tr' bl' br' ax' ay' := by
  subst h0 h1 h2 h3 h4 h5; rfl

/-! ## The kernel program: what its call finds is what its seventeen stretches leave -/

section Kernel
open Cert.KernelIdeal Cert.KernelIdeal.Gen

variable (m : (ℓ : Loc nD τ sig) → Buf (Elt F) ℓ)

/-- The array window 0 stages is what the stretches leave in its buffer. -/
theorem found0 (c : Dev nD) :
    (V m c (Pipeline.arrRef spec0 0) : S8x512x512x16.Idx → Elt F .f32)
      = Cert.Shared.kernelShared (fun b => m (c, b)) (Proc.devRef .tc main_v33) := by
  dsimp only [V]
  simp only [List.flatten_cons, List.flatten_nil, List.append_nil, StableHlo.after_append]

/-- The array window 1 stages is what the stretches leave in its buffer. -/
theorem found1 (c : Dev nD) :
    (V m c (Pipeline.arrRef spec0 1) : S8x512x512x16.Idx → Elt F .f32)
      = Cert.Shared.kernelShared (fun b => m (c, b)) (Proc.devRef .tc main_v41) := by
  dsimp only [V]
  simp only [List.flatten_cons, List.flatten_nil, List.append_nil, StableHlo.after_append]

/-- The array window 2 stages is what the stretches leave in its buffer. -/
theorem found2 (c : Dev nD) :
    (V m c (Pipeline.arrRef spec0 2) : S8x512x512x16.Idx → Elt F .f32)
      = Cert.Shared.kernelShared (fun b => m (c, b)) (Proc.devRef .tc main_v49) := by
  dsimp only [V]
  simp only [List.flatten_cons, List.flatten_nil, List.append_nil, StableHlo.after_append]

/-- The array window 3 stages is what the stretches leave in its buffer. -/
theorem found3 (c : Dev nD) :
    (V m c (Pipeline.arrRef spec0 3) : S8x512x512x16.Idx → Elt F .f32)
      = Cert.Shared.kernelShared (fun b => m (c, b)) (Proc.devRef .tc main_v59) := by
  dsimp only [V]
  simp only [List.flatten_cons, List.flatten_nil, List.append_nil, StableHlo.after_append]

/-- The array window 4 stages is what the stretches leave in its buffer. -/
theorem found4 (c : Dev nD) :
    (V m c (Pipeline.arrRef spec0 4) : S8x512x512x1.Idx → Elt F .f32)
      = Cert.Shared.kernelShared (fun b => m (c, b)) (Proc.devRef .tc main_v24) := by
  dsimp only [V]
  simp only [List.flatten_cons, List.flatten_nil, List.append_nil, StableHlo.after_append]

/-- The array window 5 stages is what the stretches leave in its buffer. -/
theorem found5 (c : Dev nD) :
    (V m c (Pipeline.arrRef spec0 5) : S8x512x512x1.Idx → Elt F .f32)
      = Cert.Shared.kernelShared (fun b => m (c, b)) (Proc.devRef .tc main_v21) := by
  dsimp only [V]
  simp only [List.flatten_cons, List.flatten_nil, List.append_nil, StableHlo.after_append]

end Kernel

/-! ## The reference: its run read through the stretches -/

section Reference
open Cert.ReferenceIdeal Cert.ReferenceIdeal.Gen

variable (m' : (ℓ : Loc nD τ sig) → Buf (Elt F) ℓ)

/-- After the reference's operations the memory is the blend's operations over what the shared stretches leave. -/
theorem after_ops (c : Dev nD) :
    after (Cert.ReferenceIdeal.RunCopy.ops (F := F)) (launchContents m' c)
      = after Chunks.blendOps (Cert.Shared.referenceShared (launchContents m' c)) := by
  rw [Chunks.ops_eq, StableHlo.after_append]
  simp only [Chunks.sharedOps, StableHlo.after_append]

set_option maxHeartbeats 4000000 in
/-- No operation of the reference writes the image: it ends as launched. -/
theorem keeps_arg0 (c : Dev nD) :
    after (Cert.ReferenceIdeal.RunCopy.ops (F := F)) (launchContents m' c) (Proc.devRef .tc main_arg0) = m' ((c.tc : Thread nD τ).loc main_arg0) :=
  StableHlo.after_of_forall_not_mem (b := Proc.devRef .tc main_arg0) _ _ (List.forall_iff_forall_mem.mp (by
    simp only [Cert.ReferenceIdeal.RunCopy.ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes the flow: it ends as launched. -/
theorem keeps_arg1 (c : Dev nD) :
    after (Cert.ReferenceIdeal.RunCopy.ops (F := F)) (launchContents m' c) (Proc.devRef .tc main_arg1) = m' ((c.tc : Thread nD τ).loc main_arg1) :=
  StableHlo.after_of_forall_not_mem (b := Proc.devRef .tc main_arg1) _ _ (List.forall_iff_forall_mem.mp (by
    simp only [Cert.ReferenceIdeal.RunCopy.ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Reference

/-! ## One result -/

/-- From launch memories that agree on the image and the flow, the reference's result buffer ends at the blend the
    kernel program's result array ends at. -/
theorem same_result (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (after (Cert.ReferenceIdeal.RunCopy.ops (F := F)) (launchContents m' c) (Proc.devRef .tc Cert.ReferenceIdeal.main_v71) : Cert.KernelIdeal.S8x512x512x16.Idx → Elt F .f32)
      = Cert.KernelIdeal.Warp.blended m c := by
  rw [after_ops, Cert.ReferenceIdeal.Tail.blend_result]
  obtain ⟨h21, h24, h33, h41, h49, h59⟩ := Cert.Shared.agree (fun b => m (c, b)) (launchContents m' c) ⟨h0.symm, h1.symm⟩
  exact blend_congr (h33.symm.trans (found0 m c).symm) (h41.symm.trans (found1 m c).symm) (h49.symm.trans (found2 m c).symm)
    (h59.symm.trans (found3 m c).symm) (h24.symm.trans (found4 m c).symm) (h21.symm.trans (found5 m c).symm)

end Cert.Bridge

end
-- ==== Proof.lean ====
/-
  A dense image warp by bilinear interpolation, kernel against reference, over the extended reals.

  Both programs take an image [8, 512, 512, 16] and a flow [8, 512, 512, 2]. The query point of an output pixel is its
  own coordinates minus the flow there; the floor of the query point, clipped so that the pixel below and to the right
  exists, names four source pixels, and the clipped fractional parts are the horizontal weight `ax` and the vertical
  weight `ay`. Four gathers fetch the source pixels (top-left, top-right, bottom-left, bottom-right), and the output
  is `top + ay · (bot − top)` with `top = tl + ax · (tr − tl)` and `bot = bl + ax · (br − bl)`.

  The two programs differ in one thing only: where the last line is computed. The reference computes it on the host,
  on whole arrays; the kernel program computes it in a call on an 8 × 8 grid, each point blending a block of 64 rows.
  Everything before it is the same operations in the same order in both programs.

  So the result arrays are equal for a reason that uses no law of arithmetic, and holds for any float values:
  * the kernel program's result array ends as the blend, entry by entry, of the six arrays its call finds
    (KernelBlend: what a grid point writes back is its block of the blend, and the 64 blocks tile the array);
  * the reference's result ends as the blend of the six arrays its last twelve operations read (RefTail);
  * from memories that agree on the two arguments, the two programs' operations before the blend leave the same six
    arrays (Shared: one step for each of seventeen stretches of operations).
  The precondition (finite inputs) is not needed for the equality and is never opened.

  The frames of the two kernel programs are the generated ones. The reference has no call: it runs to the fold of its
  operations (the patched copy of the generated run), and none of its operations writes an argument.
  No operation of the kernel was rewritten by the idealization, so nothing is owed for `preserves`.
-/
import proofs.«147620_j35158602285814_1_alg».proof.Defs
import proofs.«147620_j35158602285814_1_alg».proof.Proof.Gen.Kernel
import proofs.«147620_j35158602285814_1_alg».proof.Proof.Gen.Kernel.Frame
import proofs.«147620_j35158602285814_1_alg».proof.Proof.Gen.KernelIdeal
import proofs.«147620_j35158602285814_1_alg».proof.Proof.Gen.KernelIdeal.Frame
import proofs.«147620_j35158602285814_1_alg».proof.Proof.Gen.KernelIdeal.Value
import proofs.«147620_j35158602285814_1_alg».proof.Proof.Gen.ReferenceIdeal
import proofs.«147620_j35158602285814_1_alg».proof.Proof.Gen.Pre_finite_inputs
import proofs.«147620_j35158602285814_1_alg».proof.Proof.RefRun
import proofs.«147620_j35158602285814_1_alg».proof.Proof.Bridge
import Idealize.ShloMosaic.Adequacy
import Idealize.ShloMosaic.Init

noncomputable section

namespace Cert.Proof

open Idealize.ShloMosaic Idealize.SL.Sem

/-- The kernel program runs and leaves its arguments unchanged (the generated frame, at the word-level instance). -/
theorem frame_kernel : Cert.frame_Kernel := fun m ρ _ => Cert.Kernel.Gen.frame m ρ

/-- The same at the extended reals. -/
theorem frame_kernel_ideal : Cert.frame_KernelIdeal := fun m ρ _ => Cert.KernelIdeal.Gen.frame m ρ

/-- The reference runs to the fold of its operations, none of which writes an argument. -/
theorem frame_reference : Cert.frame_ReferenceIdeal := fun m ρ _ =>
  (θ_run Cert.ReferenceIdeal.defs _ _).mono (fun _ h c =>
      ⟨(h c Cert.ReferenceIdeal.main_arg0).trans (Cert.Bridge.keeps_arg0 m c),
       (h c Cert.ReferenceIdeal.main_arg1).trans (Cert.Bridge.keeps_arg1 m c)⟩)
    (Cert.ReferenceIdeal.RunCopy.run (F := Ideal) m ρ)

/-- Both programs end with the blend of the same six arrays: the kernel program's result array by its call's blocks,
    the reference's result buffer by its last twelve operations, the six arrays by the shared operations before. -/
theorem algebraic : Cert.algebraic_KernelIdeal_ReferenceIdeal := by
  intro m ρ m' ρ' _ hagree
  refine ⟨fun c => Cert.KernelIdeal.Warp.blended m c, Cert.KernelIdeal.Warp.run (F := Ideal) m ρ, ?_⟩
  exact (θ_run Cert.ReferenceIdeal.defs _ _).mono (fun _ h c =>
      ⟨(h c Cert.ReferenceIdeal.main_v71).trans (Cert.Bridge.same_result m m' c (hagree c).1 (hagree c).2),
       (h c Cert.ReferenceIdeal.main_arg0).trans (Cert.Bridge.keeps_arg0 m' c),
       (h c Cert.ReferenceIdeal.main_arg1).trans (Cert.Bridge.keeps_arg1 m' c)⟩)
    (Cert.ReferenceIdeal.RunCopy.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
